-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512x3 : Shape := ⟨4, ![64, 512, 512, 3]⟩
abbrev S_ : Shape := ⟨0, ![]⟩

class Facts : Prop where
  bcast_S_S64x512x512x3 : S_.BroadcastsInDim S64x512x512x3 (![] : Fin 0 → Fin S64x512x512x3.rank)
  reducesTo_S64x512x512x3_S_d0_1_2_3 : S64x512x512x3.ReducesTo [0, 1, 2, 3] S_
  h_S_ : 0 < S_.numel

variable [Facts]

def fn {F : FTy → Type} [FloatOps F] (main_arg0 : FVec F S64x512x512x3 .f32) : IVec S_ 1 :=
  let main_v0 : FVec F S64x512x512x3 .f32 := Host.absf main_arg0
  let main_cst : FVec F S_ .f32 := constant S_ .f32 0x7F800000#32
  let main_v1 : FVec F S64x512x512x3 .f32 := broadcastInDim S64x512x512x3 ![] bcast_S_S64x512x512x3 main_cst
  let main_v2 : IVec S64x512x512x3 1 := cmpf .olt main_v0 main_v1
  let main_c : IVec S_ 1 := constantI S_ 1 1#1
  let main_v3 : IVec S_ 1 := (fun x v => Host.reduce IntOp.andi x v reducesTo_S64x512x512x3_S_d0_1_2_3 h_S_) main_v2 main_c
  main_v3
-- ==== Kernel.lean ====
abbrev S64x512x512x3 : Shape := ⟨4, ![64, 512, 512, 3]⟩
abbrev S3x64x512x512 : Shape := ⟨4, ![3, 64, 512, 512]⟩
abbrev S3x16777216 : Shape := ⟨2, ![3, 16777216]⟩
abbrev S2x3x16x16 : Shape := ⟨4, ![2, 3, 16, 16]⟩
abbrev S3x65536 : Shape := ⟨2, ![3, 65536]⟩
abbrev S1x3x16x16 : Shape := ⟨4, ![1, 3, 16, 16]⟩
abbrev S3x16x16 : Shape := ⟨3, ![3, 16, 16]⟩
abbrev S16x1 : Shape := ⟨2, ![16, 1]⟩
abbrev S1x65536 : Shape := ⟨2, ![1, 65536]⟩
abbrev S16x65536 : Shape := ⟨2, ![16, 65536]⟩
abbrev S16x16 : Shape := ⟨2, ![16, 16]⟩
abbrev S1x16x16 : Shape := ⟨3, ![1, 16, 16]⟩
abbrev S_ : Shape := ⟨0, ![]⟩
abbrev S3x256 : Shape := ⟨2, ![3, 256]⟩
abbrev S3 : Shape := ⟨1, ![3]⟩
abbrev S3x1 : Shape := ⟨2, ![3, 1]⟩
abbrev S256x3 : Shape := ⟨2, ![256, 3]⟩

abbrev nBuf : Space → Nat
  | .hbm => 13
  | .vmem => 5
  | .smem => 0
  | _ => 0

abbrev bufTy : (tb : Table) → Fin (tcTables nBuf tb) → BufTy
  | .hbm, ⟨0, _⟩ => ⟨S64x512x512x3, .f32⟩
  | .hbm, ⟨1, _⟩ => ⟨S3x64x512x512, .f32⟩
  | .hbm, ⟨2, _⟩ => ⟨S3x16777216, .f32⟩
  | .hbm, ⟨3, _⟩ => ⟨S2x3x16x16, .f32⟩
  | .hbm, ⟨4, _⟩ => ⟨S_, .f32⟩
  | .hbm, ⟨5, _⟩ => ⟨S3x16x16, .f32⟩
  | .hbm, ⟨6, _⟩ => ⟨S3x256, .f32⟩
  | .hbm, ⟨7, _⟩ => ⟨S_, .f32⟩
  | .hbm, ⟨8, _⟩ => ⟨S3, .f32⟩
  | .hbm, ⟨9, _⟩ => ⟨S3x1, .f32⟩
  | .hbm, ⟨10, _⟩ => ⟨S3x256, .f32⟩
  | .hbm, ⟨11, _⟩ => ⟨S3x256, .f32⟩
  | .hbm, ⟨12, _⟩ => ⟨S256x3, .f32⟩
  | .local _ .vmem, ⟨0, _⟩ => ⟨S3x65536, .f32⟩
  | .local _ .vmem, ⟨1, _⟩ => ⟨S3x65536, .f32⟩
  | .local _ .vmem, ⟨2, _⟩ => ⟨S1x3x16x16, .f32⟩
  | .local _ .vmem, ⟨3, _⟩ => ⟨S1x3x16x16, .f32⟩
  | .local _ .vmem, ⟨4, _⟩ => ⟨S3x16x16, .f32⟩
  | _, _ => ⟨S64x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 128], ![false, false]⟩

def k0_cond2 (i : grid0.Coords) : BitVec 1 :=
  let arg1 : BitVec 32 := BitVec.ofNat 32 (i 1).val
  let c127_i32 : BitVec 32 := 127#32
  let v169 : BitVec 1 := Scalar.cmpi .eq arg1 c127_i32
  let v170 : BitVec 32 := Scalar.extui v169
  let c0_i32_54 : BitVec 32 := 0#32
  let v171 : BitVec 1 := Scalar.cmpi .ne v170 c0_i32_54
  v171

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  transposes_S64x512x512x3_S3x64x512x512_3_0_1_2 : S64x512x512x3.Transposes [3, 0, 1, 2] S3x64x512x512
  shapeCasts_S3x64x512x512_S3x16777216 : S3x64x512x512.ShapeCasts S3x16777216
  inb_S3x16x16_S3x16x16_0_0_0 : ∀ a, (![0, 0, 0] : Fin 3 → Nat) a + S3x16x16.size a ≤ S3x16x16.size a
  h_S3x16x16 : 0 < S3x16x16.numel
  shapeCasts_S3x16x16_S3x16x16 : S3x16x16.ShapeCasts S3x16x16
  iota_S16x1_d0_w32 : S16x1.Iotas .tc 32 [0]
  inb_S3x65536_S1x65536_0_0 : ∀ a, (![0, 0] : Fin 2 → Nat) a + S1x65536.size a ≤ S3x65536.size a
  h_S1x65536 : 0 < S1x65536.numel
  shapeCasts_S1x65536_S1x65536 : S1x65536.ShapeCasts S1x65536
  natLt_1_32 : 1 < 32
  broadcasts_S1x65536_S16x65536 : S1x65536.Broadcasts S16x65536
  broadcasts_S16x1_S16x65536 : S16x1.Broadcasts S16x65536
  bitsLt_bf16_f32 : FTy.bits .bf16 < FTy.bits .f32
  inb_S3x16x16_S1x16x16_0_0_0 : ∀ a, (![0, 0, 0] : Fin 3 → Nat) a + S1x16x16.size a ≤ S3x16x16.size a
  h_S1x16x16 : 0 < S1x16x16.numel
  shapeCasts_S1x16x16_S16x16 : S1x16x16.ShapeCasts S16x16
  shapeCasts_S16x16_S1x16x16 : S16x16.ShapeCasts S1x16x16
  inb_S3x65536_S1x65536_1_0 : ∀ a, (![1, 0] : Fin 2 → Nat) a + S1x65536.size a ≤ S3x65536.size a
  inb_S3x16x16_S1x16x16_1_0_0 : ∀ a, (![1, 0, 0] : Fin 3 → Nat) a + S1x16x16.size a ≤ S3x16x16.size a
  inb_S3x65536_S1x65536_2_0 : ∀ a, (![2, 0] : Fin 2 → Nat) a + S1x65536.size a ≤ S3x65536.size a
  inb_S3x16x16_S1x16x16_2_0_0 : ∀ a, (![2, 0, 0] : Fin 3 → Nat) a + S1x16x16.size a ≤ S3x16x16.size a
  inb_S1x3x16x16_S1x3x16x16_0_0_0_0 : ∀ a, (![0, 0, 0, 0] : Fin 4 → Nat) a + S1x3x16x16.size a ≤ S1x3x16x16.size a
  h_S1x3x16x16 : 0 < S1x3x16x16.numel
  shapeCasts_S1x3x16x16_S3x16x16 : S1x3x16x16.ShapeCasts S3x16x16
  shapeCasts_S3x16x16_S1x3x16x16 : S3x16x16.ShapeCasts S1x3x16x16
  reducesTo_S2x3x16x16_S3x16x16_d0 : S2x3x16x16.ReducesTo [0] S3x16x16
  h_S_ : 0 < S_.numel
  shapeCasts_S3x16x16_S3x256 : S3x16x16.ShapeCasts S3x256
  reducesTo_S3x256_S3_d1 : S3x256.ReducesTo [1] S3
  bcast_S3_S3x1_0 : S3.BroadcastsInDim S3x1 (![0] : Fin 1 → Fin S3x1.rank)
  bcast_S3x1_S3x256_0_1 : S3x1.BroadcastsInDim S3x256 (![0, 1] : Fin 2 → Fin S3x256.rank)
  transposes_S3x256_S256x3_1_0 : S3x256.Transposes [1, 0] S256x3
  dot_S16x65536_S16x65536_S16x16_1_1_0_0_n_n_wf : DotDims.WF S16x65536 S16x65536 S16x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x16777216.size a
  hwx0_0 : ∀ i : grid0.Coords, EltTy.bits .f32 = 32 ∨ (Rect.block (s := S3x16777216) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x16x16.size a ≤ S2x3x16x16.size a
  hwx0_1 : ∀ i : grid0.Coords, EltTy.bits .f32 = 32 ∨ (Rect.block (s := S2x3x16x16) S1x3x16x16.size (cc0_transform_1 i) (hinb0_1 i)).WholeWords (EltTy.packing .f32)

variable [Facts₀]

def dot_S16x65536_S16x65536_S16x16_1_1_0_0_n_n : DotDims S16x65536 S16x65536 S16x16 where
  lhsContracting := [1]
  rhsContracting := [1]
  lhsNonContracting := [0]
  rhsNonContracting := [0]
  lhsBatch := []
  rhsBatch := []
  wf := dot_S16x65536_S16x65536_S16x16_1_1_0_0_n_n_wf

abbrev win0_0 : Pipeline.Window sig grid0 :=
  Pipeline.Window.ofSpec (Memref.whole main_v1) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x16x16.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S64x512x512x3 : Shape := ⟨4, ![64, 512, 512, 3]⟩
abbrev S_ : Shape := ⟨0, ![]⟩
abbrev S3 : Shape := ⟨1, ![3]⟩
abbrev S1x1x1x3 : Shape := ⟨4, ![1, 1, 1, 3]⟩
abbrev S50331648 : Shape := ⟨1, ![50331648]⟩
abbrev S768 : Shape := ⟨1, ![768]⟩
abbrev S50331648x1 : Shape := ⟨2, ![50331648, 1]⟩
abbrev S3x256 : Shape := ⟨2, ![3, 256]⟩
abbrev S3x1 : Shape := ⟨2, ![3, 1]⟩
abbrev S256x3 : Shape := ⟨2, ![256, 3]⟩

abbrev nBuf : Space → Nat
  | .hbm => 34
  | .vmem => 0
  | .smem => 0
  | _ => 0

abbrev bufTy : (tb : Table) → Fin (tcTables nBuf tb) → BufTy
  | .hbm, ⟨0, _⟩ => ⟨S64x512x512x3, .f32⟩
  | .hbm, ⟨1, _⟩ => ⟨S_, .f32⟩
  | .hbm, ⟨2, _⟩ => ⟨S64x512x512x3, .f32⟩
  | .hbm, ⟨3, _⟩ => ⟨S64x512x512x3, .f32⟩
  | .hbm, ⟨4, _⟩ => ⟨S64x512x512x3, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S64x512x512x3, .i32⟩
  | .hbm, ⟨9, _⟩ => ⟨S64x512x512x3, .i32⟩
  | .hbm, ⟨10, _⟩ => ⟨S_, .i32⟩
  | .hbm, ⟨11, _⟩ => ⟨S64x512x512x3, .i32⟩
  | .hbm, ⟨12, _⟩ => ⟨S64x512x512x3, .i32⟩
  | .hbm, ⟨13, _⟩ => ⟨S3, .i32⟩
  | .hbm, ⟨14, _⟩ => ⟨S_, .i32⟩
  | .hbm, ⟨15, _⟩ => ⟨S3, .i32⟩
  | .hbm, ⟨16, _⟩ => ⟨S3, .i32⟩
  | .hbm, ⟨17, _⟩ => ⟨S1x1x1x3, .i32⟩
  | .hbm, ⟨18, _⟩ => ⟨S64x512x512x3, .i32⟩
  | .hbm, ⟨19, _⟩ => ⟨S64x512x512x3, .i32⟩
  | .hbm, ⟨20, _⟩ => ⟨S50331648, .i32⟩
  | .hbm, ⟨21, _⟩ => ⟨S_, .f32⟩
  | .hbm, ⟨22, _⟩ => ⟨S50331648, .f32⟩
  | .hbm, ⟨23, _⟩ => ⟨S_, .f32⟩
  | .hbm, ⟨24, _⟩ => ⟨S768, .f32⟩
  | .hbm, ⟨25, _⟩ => ⟨S50331648x1, .i32⟩
  | .hbm, ⟨26, _⟩ => ⟨S768, .f32⟩
  | .hbm, ⟨27, _⟩ => ⟨S3x256, .f32⟩
  | .hbm, ⟨28, _⟩ => ⟨S_, .f32⟩
  | .hbm, ⟨29, _⟩ => ⟨S3, .f32⟩
  | .hbm, ⟨30, _⟩ => ⟨S3x1, .f32⟩
  | .hbm, ⟨31, _⟩ => ⟨S3x256, .f32⟩
  | .hbm, ⟨32, _⟩ => ⟨S3x256, .f32⟩
  | .hbm, ⟨33, _⟩ => ⟨S256x3, .f32⟩
  | _, _ => ⟨S64x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S_S64x512x512x3 : S_.BroadcastsInDim S64x512x512x3 (![] : Fin 0 → Fin S64x512x512x3.rank)
  bcast_S_S3 : S_.BroadcastsInDim S3 (![] : Fin 0 → Fin S3.rank)
  bcast_S3_S1x1x1x3_3 : S3.BroadcastsInDim S1x1x1x3 (![3] : Fin 1 → Fin S1x1x1x3.rank)
  bcast_S1x1x1x3_S64x512x512x3_0_1_2_3 : S1x1x1x3.BroadcastsInDim S64x512x512x3 (![0, 1, 2, 3] : Fin 4 → Fin S64x512x512x3.rank)
  shapeCasts_S64x512x512x3_S50331648 : S64x512x512x3.ShapeCasts S50331648
  bcast_S_S50331648 : S_.BroadcastsInDim S50331648 (![] : Fin 0 → Fin S50331648.rank)
  bcast_S_S768 : S_.BroadcastsInDim S768 (![] : Fin 0 → Fin S768.rank)
  bcast_S50331648_S50331648x1_0 : S50331648.BroadcastsInDim S50331648x1 (![0] : Fin 1 → Fin S50331648x1.rank)
  shapeCasts_S768_S3x256 : S768.ShapeCasts S3x256
  reducesTo_S3x256_S3_d1 : S3x256.ReducesTo [1] S3
  h_S_ : 0 < S_.numel
  bcast_S3_S3x1_0 : S3.BroadcastsInDim S3x1 (![0] : Fin 1 → Fin S3x1.rank)
  bcast_S3x1_S3x256_0_1 : S3x1.BroadcastsInDim S3x256 (![0, 1] : Fin 2 → Fin S3x256.rank)
  transposes_S3x256_S256x3_1_0 : S3x256.Transposes [1, 0] S256x3
  scatter_S768_S50331648x1_S50331648_n_0_0_1_wf : ScatterDims.WF S768 S50331648x1 S50331648 [] [0] [0] 1

variable [Facts₀]

def scatter_S768_S50331648x1_S50331648_n_0_0_1 : ScatterDims S768 S50331648x1 S50331648 where
  updateWindowDims := []
  insertedWindowDims := [0]
  scatterDimsToOperandDims := [0]
  indexVectorDim := 1
  wf := scatter_S768_S50331648x1_S50331648_n_0_0_1_wf

class Facts : Prop extends Facts₀ where

variable [Facts]
-- ==== Proof.Spec.lean ====
/-
  The per-channel 256-bin histogram both programs compute, as ONE function of the input array.

  A sample x (an extended real) falls in bin  clip (trunc (256 · x), 0, 255).  Channel c's count
  of bin b is the number of the 2^24 pixels whose channel-c sample falls in bin b; the result is
  each count divided by its channel's total, laid out [bin, channel].

  The kernel splits a bin into two base-16 digits (bin = 16 · hi + lo) and counts pairs of digits;
  the reference adds 256 · c to the bin and scatter-adds ones into 768 cells.  Both are this count.
-/
import Idealize.ShloMosaic.PureOps.Ideal
import Idealize.ShloMosaic.PureOps.Ideal.Laws
import Idealize.ShloMosaic.Lib.ValueIdx

noncomputable section

namespace Cert.Hist

open Idealize.ShloMosaic Idealize.ShloMosaic.ValueIdx

abbrev S64x512x512x3 : Shape := ⟨4, ![64, 512, 512, 3]⟩
abbrev S3x16777216 : Shape := ⟨2, ![3, 16777216]⟩
abbrev S1x65536 : Shape := ⟨2, ![1, 65536]⟩
abbrev S3x256 : Shape := ⟨2, ![3, 256]⟩
abbrev S256x3 : Shape := ⟨2, ![256, 3]⟩
abbrev S3 : Shape := ⟨1, ![3]⟩
abbrev S3x1 : Shape := ⟨2, ![3, 1]⟩
abbrev S_ : Shape := ⟨0, ![]⟩

/-- The bin word of one sample: 256 · x truncated toward zero, clamped to [0, 255]. -/
def binOf (x : EReal) : BitVec 32 :=
  IntOp.minsi 255#32 (IntOp.maxsi 0#32
    (FloatOps.fptosi (F := Ideal) 32 (FloatOps.mulf (F := Ideal) (φ := .f32) x (FloatOps.ofBits (F := Ideal) .f32 0x43800000#32))))

/-- The high base-16 digit of a bin word, as the kernel computes a floor division by 16:
    the truncated quotient, less one where the signs differ and the remainder is not zero. -/
def hiOf (w : BitVec 32) : BitVec 32 :=
  Scalar.select
    (IntOp.andi
      (IntOp.cmpi .ne
        (IntOp.subi ((IntOp.cmpi .sgt w 0#32).setWidth 32) ((IntOp.cmpi .slt w 0#32).setWidth 32))
        (Scalar.subi (Scalar.extui (Scalar.cmpi .sgt 16#32 0#32)) (Scalar.extui (Scalar.cmpi .slt 16#32 0#32))))
      (IntOp.cmpi .ne (IntOp.remsi .vector w 16#32) 0#32))
    (IntOp.subi (IntOp.divsi .vector w 16#32) 1#32)
    (IntOp.divsi .vector w 16#32)

/-- The low digit: the word less sixteen times its high digit. -/
def loOf (w : BitVec 32) : BitVec 32 := IntOp.subi w (IntOp.muli (hiOf w) 16#32)

/-- How many of one row's 65536 samples fall in bin 16 · h + l. -/
def slabCount (x : S1x65536.Idx → EReal) (h l : Fin 16) : ℕ :=
  (Finset.univ.filter fun n : Fin 65536 => binOf (x (ix2 0 n)) = BitVec.ofNat 32 (16 * h.val + l.val)).card

/-- Pixel N (row-major over batch, height, width) and channel c, as an index of the input array. -/
def pix (N : Fin 16777216) (c : Fin 3) : S64x512x512x3.Idx :=
  ix4 ⟨N.val / 262144, by have := N.isLt; omega⟩ ⟨N.val / 512 % 512, Nat.mod_lt _ (by decide)⟩
    ⟨N.val % 512, Nat.mod_lt _ (by decide)⟩ c

/-- Channel c's count of bin b over all pixels. -/
def count (X : S64x512x512x3.Idx → EReal) (c : Fin 3) (b : Fin 256) : ℕ :=
  (Finset.univ.filter fun N : Fin 16777216 => binOf (X (pix N c)) = BitVec.ofNat 32 b.val).card

/-- The counts as a [3, 256] array of extended reals. -/
def counts (X : S64x512x512x3.Idx → EReal) : S3x256.Idx → EReal :=
  fun i => ((count X (i 0) (i 1) : ℕ) : EReal)

/-- Both programs' last five host operations: each row divided by its sum, then transposed. -/
def normalize (v : FVec Ideal S3x256 .f32)
    (hr : S3x256.ReducesTo [1] S3) (hu : 0 < S_.numel)
    (hb1 : S3.BroadcastsInDim S3x1 (![0] : Fin 1 → Fin S3x1.rank))
    (hb2 : S3x1.BroadcastsInDim S3x256 (![0, 1] : Fin 2 → Fin S3x256.rank))
    (ht : S3x256.Transposes [1, 0] S256x3) : FVec Ideal S256x3 .f32 :=
  transpose S256x3 [1, 0]
    (Host.divf v (broadcastInDim S3x256 ![0, 1] hb2 (broadcastInDim S3x1 ![0] hb1
      (Host.reduceAdd v (constant (F := Ideal) S_ .f32 0x00000000#32) hr hu)))) ht

end Cert.Hist

end
-- ==== Proof.Count.lean ====
/-
  Counting by blocks.  The 2^24 pixels are 256 consecutive blocks of 65536; a channel's count of a
  bin is the sum of its 256 block counts.  The kernel visits the blocks in order in two sweeps of
  128, restarting its running count at each sweep's first block: the running count after the last
  block of a sweep is the sweep's total, and the two sweeps' totals add up to the channel's count.
-/
import proofs.«130361_j23888608100752_1_alg».proof.Proof.Spec
import Mathlib.Algebra.BigOperators.Fin
import Mathlib.Algebra.BigOperators.Intervals
import Mathlib.Logic.Equiv.Fin.Basic

noncomputable section

namespace Cert.Hist

open Idealize.ShloMosaic Idealize.ShloMosaic.ValueIdx

variable (X : S64x512x512x3.Idx → EReal) (cc : Fin 3)

/-- Row cc of block t of the flattened input: lane n is pixel 65536 · t + n. -/
def blockRow (t : ℕ) : S1x65536.Idx → EReal :=
  fun j => X (pix ⟨(t * 65536 + (j 1).val) % 16777216, Nat.mod_lt _ (by decide)⟩ cc)

/-- Block t's count of bin 16 · h + l. -/
def blockCount (h l : Fin 16) (t : ℕ) : ℕ := slabCount (blockRow X cc t) h l

/-- The running count after block n: restarted at the first block of each sweep of 128. -/
def running (h l : Fin 16) : ℕ → ℕ
  | 0 => blockCount X cc h l 0
  | n + 1 => if (n + 1) % 128 = 0 then blockCount X cc h l (n + 1) else running h l n + blockCount X cc h l (n + 1)

theorem running_zero (h l : Fin 16) : running X cc h l 0 = blockCount X cc h l 0 := rfl

theorem running_first (h l : Fin 16) (n : ℕ) (hn : n % 128 = 0) : running X cc h l n = blockCount X cc h l n := by
  cases n with
  | zero => rfl
  | succ n => simp only [running, if_pos hn]

theorem running_next (h l : Fin 16) (n : ℕ) (hn0 : n ≠ 0) (hn : ¬ n % 128 = 0) :
    running X cc h l n = running X cc h l (n - 1) + blockCount X cc h l n := by
  cases n with
  | zero => exact absurd rfl hn0
  | succ n => simp only [running, if_neg hn, Nat.add_sub_cancel]

/-- Within sweep p the running count after its block s is the sum of its blocks 0 … s. -/
theorem running_sweep (h l : Fin 16) (p : ℕ) : ∀ s, s < 128 →
    running X cc h l (p * 128 + s) = ∑ s' ∈ Finset.range (s + 1), blockCount X cc h l (p * 128 + s')
  | 0, _ => by
    rw [running_first X cc h l (p * 128 + 0) (by omega)]
    simp
  | s + 1, hs => by
    rw [running_next X cc h l (p * 128 + (s + 1)) (by omega) (by omega),
      show p * 128 + (s + 1) - 1 = p * 128 + s by omega, running_sweep h l p s (by omega),
      Finset.sum_range_succ _ (s + 1)]

/-- A count over all pixels is the sum over the 256 blocks of the counts over their 65536 lanes. -/
theorem card_blocks (Q : Fin 16777216 → Prop) [DecidablePred Q] :
    (Finset.univ.filter Q).card
      = ∑ t ∈ Finset.range 256, (Finset.univ.filter fun n : Fin 65536 =>
          Q ⟨(t * 65536 + n.val) % 16777216, Nat.mod_lt _ (by decide)⟩).card := by
  have h : 256 * 65536 = 16777216 := by decide
  rw [Finset.sum_range]
  simp only [Finset.card_filter]
  rw [← Fintype.sum_prod_type']
  rw [← Equiv.sum_comp ((finProdFinEquiv (m := 256) (n := 65536)).trans (finCongr h))]
  refine Fintype.sum_congr _ _ ?_
  rintro ⟨t, n⟩
  have ht := t.isLt
  have hn := n.isLt
  have e : ((finProdFinEquiv (m := 256) (n := 65536)).trans (finCongr h)) (t, n)
      = (⟨(t.val * 65536 + n.val) % 16777216, Nat.mod_lt _ (by decide)⟩ : Fin 16777216) := by
    apply Fin.ext
    simp only [Equiv.trans_apply, finCongr_apply, Fin.coe_cast, finProdFinEquiv_apply_val]
    omega
  rw [e]

/-- The channel's count of bin b is the two sweeps' final running counts of its digit pair. -/
theorem count_eq_running (b : Fin 256) :
    count X cc b
      = running X cc ⟨b.val / 16, by have := b.isLt; omega⟩ ⟨b.val % 16, Nat.mod_lt _ (by decide)⟩ 127
        + running X cc ⟨b.val / 16, by have := b.isLt; omega⟩ ⟨b.val % 16, Nat.mod_lt _ (by decide)⟩ 255 := by
  have hb : 16 * (b.val / 16) + b.val % 16 = b.val := Nat.div_add_mod b.val 16
  generalize_proofs p1 p2
  have key : ∀ t : ℕ, (Finset.univ.filter fun n : Fin 65536 =>
      binOf (X (pix ⟨(t * 65536 + n.val) % 16777216, Nat.mod_lt _ (by decide)⟩ cc)) = BitVec.ofNat 32 b.val).card
      = blockCount X cc ⟨b.val / 16, p1⟩ ⟨b.val % 16, p2⟩ t := by
    intro t
    unfold blockCount slabCount blockRow
    simp only [hb]
  have h0 : running X cc ⟨b.val / 16, p1⟩ ⟨b.val % 16, p2⟩ 127
      = ∑ s' ∈ Finset.range 128, blockCount X cc ⟨b.val / 16, p1⟩ ⟨b.val % 16, p2⟩ s' := by
    have := running_sweep X cc ⟨b.val / 16, p1⟩ ⟨b.val % 16, p2⟩ 0 127 (by omega)
    simpa using this
  have h1 : running X cc ⟨b.val / 16, p1⟩ ⟨b.val % 16, p2⟩ 255
      = ∑ s' ∈ Finset.range 128, blockCount X cc ⟨b.val / 16, p1⟩ ⟨b.val % 16, p2⟩ (128 + s') := by
    have := running_sweep X cc ⟨b.val / 16, p1⟩ ⟨b.val % 16, p2⟩ 1 127 (by omega)
    simpa using this
  calc count X cc b
      = ∑ t ∈ Finset.range (128 + 128), blockCount X cc ⟨b.val / 16, p1⟩ ⟨b.val % 16, p2⟩ t := by
        unfold count
        rw [card_blocks]
        exact Finset.sum_congr rfl (fun t _ => key t)
    _ = _ := by rw [Finset.sum_range_add, h0, h1]

end Cert.Hist

end
-- ==== Proof.Cases.lean ====
/-
  What one grid point leaves in the carried accumulator and in the output block, read at an index.

  The body adds, for each channel row c = 0, 1, 2, a 16 × 16 matrix of digit-pair counts of the
  point's row c to slab c of the [3, 16, 16] accumulator (after zeroing it at the first point of a
  sweep), and at the last point of a sweep copies the accumulator to the output block.
-/
import proofs.«130361_j23888608100752_1_alg».proof.Proof.Gen.KernelIdeal.Frame
import Idealize.ShloMosaic.Lib.Pipeline.Value
import Idealize.ShloMosaic.Lib.ValueIdx
import Idealize.ShloMosaic.Lib.Tactic

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen

variable {F : FTy → Type} [FloatOps F]

/-- The row iota the body compares digits against. -/
abbrev iotaV : IVec S16x1 32 := iota .tc S16x1 32 [0] iota_S16x1_d0_w32

/-- Row c of a [3, 65536] block, as a [1, 65536] vector. -/
def row (c : Fin 3) (x0 : Vec F S3x65536 .f32) : Vec F S1x65536 .f32 := fun j => x0 (ix2 c (j 1))

/-- Slab c of the [3, 16, 16] accumulator, as a [1, 16, 16] vector. -/
def slab (c : Fin 3) (xs : Vec F S3x16x16 .f32) : Vec F S1x16x16 .f32 := fun j => xs (ix3 c (j 1) (j 2))

/-- The three slabs the body stores, from the point's input block and the accumulator it found. -/
def upd0 (x0 : Vec F S3x65536 .f32) (xs : Vec F S3x16x16 .f32) : FVec F S1x16x16 .f32 :=
  k0_pay8 iotaV (k0_pay5 (row 0 x0)) (k0_pay6 (row 0 x0)) k0_pay7 (slab 0 xs)
def upd1 (x0 : Vec F S3x65536 .f32) (xs : Vec F S3x16x16 .f32) : FVec F S1x16x16 .f32 :=
  k0_pay12 iotaV (k0_pay9 (row 1 x0)) 16#32 (k0_pay10 (row 1 x0)) (k0_pay11 (row 1 x0)) (slab 1 xs)
def upd2 (x0 : Vec F S3x65536 .f32) (xs : Vec F S3x16x16 .f32) : FVec F S1x16x16 .f32 :=
  k0_pay16 iotaV (k0_pay13 (row 2 x0)) 16#32 (k0_pay14 (row 2 x0)) k0_pay15 (slab 2 xs)

/-- The accumulator after a point, from the block and the accumulator before: slab c updated. -/
def upd (x0 : Vec F S3x65536 .f32) (xs : Vec F S3x16x16 .f32) : Vec F S3x16x16 .f32 := fun j =>
  if (j 0).val = 0 then upd0 x0 xs (ix3 0 (j 1) (j 2))
  else if (j 0).val = 1 then upd1 x0 xs (ix3 0 (j 1) (j 2))
  else upd2 x0 xs (ix3 0 (j 1) (j 2))

/-- The zero accumulator a sweep's first point stores before it adds. -/
abbrev zeros : Vec F S3x16x16 .f32 := k0_pay2 (F := F)

/-! ### The geometry of the three slabs -/

/-- A load through the unit rectangle at row c of the input block reads row c. -/
private theorem ld_row (c : Fin 3) (x0 : Vec F S3x65536 .f32) (off : Fin 2 → Nat)
    (inb : ∀ a, off a + S1x65536.size a ≤ S3x65536.size a) (h0 : off 0 = c.val) (h1 : off 1 = 0) :
    View.ld x0 (Rect.unit off S1x65536.size inb) = row c x0 := by
  funext y
  show x0 _ = x0 _
  congr 1
  funext a
  apply Fin.ext
  match a with
  | ⟨0, _⟩ =>
    show off 0 + 1 * (y 0).val = c.val
    have : (y 0).val < 1 := (y 0).isLt
    omega
  | ⟨1, _⟩ =>
    show off 1 + 1 * (y 1).val = (y 1).val
    omega

/-- A load through the unit rectangle at slab c of the accumulator reads slab c. -/
private theorem ld_slab (c : Fin 3) (xs : Vec F S3x16x16 .f32) (off : Fin 3 → Nat)
    (inb : ∀ a, off a + S1x16x16.size a ≤ S3x16x16.size a) (h0 : off 0 = c.val) (h1 : off 1 = 0) (h2 : off 2 = 0) :
    View.ld xs (Rect.unit off S1x16x16.size inb) = slab c xs := by
  funext y
  show xs _ = xs _
  congr 1
  funext a
  apply Fin.ext
  match a with
  | ⟨0, _⟩ =>
    show off 0 + 1 * (y 0).val = c.val
    have : (y 0).val < 1 := (y 0).isLt
    omega
  | ⟨1, _⟩ =>
    show off 1 + 1 * (y 1).val = (y 1).val
    omega
  | ⟨2, _⟩ =>
    show off 2 + 1 * (y 2).val = (y 2).val
    omega

/-- The slab-c rectangle places its local index (0, h, l) at (c, h, l). -/
private theorem emb_slab (c : Fin 3) (off : Fin 3 → Nat)
    (inb : ∀ a, off a + S1x16x16.size a ≤ S3x16x16.size a) (h0 : off 0 = c.val) (h1 : off 1 = 0) (h2 : off 2 = 0)
    (h l : Fin 16) :
    (Rect.unit (s := S3x16x16) off S1x16x16.size inb).emb (ix3 (0 : Fin 1) h l) = ix3 c h l := by
  funext a
  apply Fin.ext
  match a with
  | ⟨0, _⟩ =>
    show off 0 + 1 * 0 = c.val
    omega
  | ⟨1, _⟩ =>
    show off 1 + 1 * h.val = h.val
    omega
  | ⟨2, _⟩ =>
    show off 2 + 1 * l.val = l.val
    omega

/-- An index of another slab is not in the slab-c rectangle. -/
private theorem not_mem_slab (off : Fin 3 → Nat) (inb : ∀ a, off a + S1x16x16.size a ≤ S3x16x16.size a)
    (cc : Fin 3) (h l : Fin 16) (hne : off 0 ≠ cc.val) :
    ix3 cc h l ∉ (Rect.unit (s := S3x16x16) off S1x16x16.size inb).set := by
  rw [Rect.mem_set_unit]
  intro hh
  have h0 : off 0 ≤ cc.val ∧ cc.val < off 0 + 1 := hh (0 : Fin 3)
  omega

/-- An index of slab c is in the slab-c rectangle. -/
private theorem mem_slab (off : Fin 3 → Nat) (inb : ∀ a, off a + S1x16x16.size a ≤ S3x16x16.size a)
    (cc : Fin 3) (h l : Fin 16) (h0 : off 0 = cc.val) (h1 : off 1 = 0) (h2 : off 2 = 0) :
    ix3 cc h l ∈ (Rect.unit (s := S3x16x16) off S1x16x16.size inb).set := by
  rw [Rect.mem_set_unit]
  intro a
  match a with
  | ⟨0, _⟩ =>
    show off 0 ≤ cc.val ∧ cc.val < off 0 + 1
    omega
  | ⟨1, _⟩ =>
    show off 1 ≤ h.val ∧ h.val < off 1 + 16
    have := h.isLt
    omega
  | ⟨2, _⟩ =>
    show off 2 ≤ l.val ∧ l.val < off 2 + 16
    have := l.isLt
    omega

/-- A store into the slab at offset off, seen from an index of another slab, is skipped. -/
private theorem canon_skip {Val : EltTy → Type} [∀ e, Nonempty (Val e)] (off : Fin 3 → Nat)
    (inb : ∀ a, off a + S1x16x16.size a ≤ S3x16x16.size a) (w : S1x16x16.Idx → Val .f32)
    (L : List (View.Piece Val S3x16x16 .f32)) (cc : Fin 3) (h l : Fin 16) (hne : off 0 ≠ cc.val) :
    View.canon ((⟨Rect.unit off S1x16x16.size inb, w⟩ : View.Piece Val S3x16x16 .f32) :: L) (ix3 cc h l)
      = View.canon L (ix3 cc h l) :=
  View.canon_cons_of_not_mem (⟨Rect.unit off S1x16x16.size inb, w⟩ : View.Piece Val S3x16x16 .f32) L
    (not_mem_slab off inb cc h l hne)

/-- A store into slab c, last, leaves its payload at (0, h, l) in entry (c, h, l). -/
private theorem canon_hit {Val : EltTy → Type} [∀ e, Nonempty (Val e)] (c : Fin 3) (off : Fin 3 → Nat)
    (inb : ∀ a, off a + S1x16x16.size a ≤ S3x16x16.size a) (w : S1x16x16.Idx → Val .f32)
    (L : List (View.Piece Val S3x16x16 .f32)) (h l : Fin 16) (h0 : off 0 = c.val) (h1 : off 1 = 0) (h2 : off 2 = 0) :
    View.canon ((⟨Rect.unit off S1x16x16.size inb, w⟩ : View.Piece Val S3x16x16 .f32) :: L) (ix3 c h l)
      = w (ix3 0 h l) :=
  (congrArg (View.canon ((⟨Rect.unit off S1x16x16.size inb, w⟩ : View.Piece Val S3x16x16 .f32) :: L))
      (emb_slab c off inb h0 h1 h2 h l)).symm.trans
    (View.canon_cons_emb (s := S3x16x16) (Rect.unit off S1x16x16.size inb) w L (ix3 0 h l))

/-- What three stores, one per slab (the last into slab 2), leave, whatever was stored before them:
    at (cc, h, l) the payload of slab cc's store at (0, h, l). -/
private theorem canon_slabs {Val : EltTy → Type} [∀ e, Nonempty (Val e)]
    (w0 w1 w2 : S1x16x16.Idx → Val .f32) (inb0 inb1 inb2) (L : List (View.Piece Val S3x16x16 .f32)) :
    View.canon ((⟨Rect.unit ![2, 0, 0] S1x16x16.size inb2, w2⟩ : View.Piece Val S3x16x16 .f32)
        :: ⟨Rect.unit ![1, 0, 0] S1x16x16.size inb1, w1⟩ :: ⟨Rect.unit ![0, 0, 0] S1x16x16.size inb0, w0⟩ :: L)
      = fun j => if (j 0).val = 0 then w0 (ix3 0 (j 1) (j 2))
          else if (j 0).val = 1 then w1 (ix3 0 (j 1) (j 2)) else w2 (ix3 0 (j 1) (j 2)) := by
  funext j
  obtain ⟨cc, h, l, rfl⟩ : ∃ (cc : Fin 3) (h l : Fin 16), j = ix3 cc h l := ⟨_, _, _, eq_ix3 j⟩
  show _ = if cc.val = 0 then w0 (ix3 0 h l) else if cc.val = 1 then w1 (ix3 0 h l) else w2 (ix3 0 h l)
  by_cases e0 : cc.val = 0
  · rw [if_pos e0]
    obtain rfl : cc = 0 := Fin.ext e0
    exact (canon_skip ![2, 0, 0] inb2 w2 _ 0 h l (by decide)).trans
      ((canon_skip ![1, 0, 0] inb1 w1 _ 0 h l (by decide)).trans
        (canon_hit 0 ![0, 0, 0] inb0 w0 L h l rfl rfl rfl))
  · rw [if_neg e0]
    by_cases e1 : cc.val = 1
    · rw [if_pos e1]
      obtain rfl : cc = 1 := Fin.ext e1
      exact (canon_skip ![2, 0, 0] inb2 w2 _ 1 h l (by decide)).trans
        (canon_hit 1 ![1, 0, 0] inb1 w1 _ h l rfl rfl rfl)
    · rw [if_neg e1]
      obtain rfl : cc = 2 := Fin.ext (by show cc.val = 2; have := cc.isLt; omega)
      exact canon_hit 2 ![2, 0, 0] inb2 w2 _ h l rfl rfl rfl

private theorem hz3 : (![0, 0, 0] : Fin 3 → Nat) = fun _ => 0 := funext fun a => by fin_cases a <;> rfl
private theorem hz4 : (![0, 0, 0, 0] : Fin 4 → Nat) = fun _ => 0 := funext fun a => by fin_cases a <;> rfl

/-- A load of the whole accumulator after the stores L reads what they leave. -/
private theorem readCov_whole {Val : EltTy → Type} [∀ e, Nonempty (Val e)] {sg : RefSig} {κ : Kind} {sp : Space}
    (v : View sg κ sp S3x16x16 .f32) (L : List (View.Piece Val S3x16x16 .f32))
    (inb : ∀ a, (![0, 0, 0] : Fin 3 → Nat) a + S3x16x16.size a ≤ S3x16x16.size a) :
    v.readCov L (Rect.unit ![0, 0, 0] S3x16x16.size inb).toLoadRect = View.canon L :=
  (View.readCov_eq_canon' v L _).trans (View.ld_unit_zero hz3 inb (View.canon L))

/-- A load of slab c after the stores L reads slab c of what they leave there. -/
private theorem readCov_slab {sg : RefSig} {κ : Kind} {sp : Space} (v : View sg κ sp S3x16x16 .f32)
    (L : List (View.Piece (Elt F) S3x16x16 .f32)) (c : Fin 3) (off : Fin 3 → Nat)
    (inb : ∀ a, off a + S1x16x16.size a ≤ S3x16x16.size a) (h0 : off 0 = c.val) (h1 : off 1 = 0) (h2 : off 2 = 0)
    (G : Vec F S3x16x16 .f32) (hL : ∀ h l : Fin 16, View.canon L (ix3 c h l) = G (ix3 c h l)) :
    v.readCov L (Rect.unit (s := S3x16x16) off S1x16x16.size inb).toLoadRect = slab c G := by
  rw [View.readCov_eq_canon']
  funext j
  obtain ⟨z, h, l, rfl⟩ : ∃ (z : Fin 1) (h l : Fin 16), j = ix3 z h l := ⟨_, _, _, eq_ix3 j⟩
  obtain rfl : z = 0 := Subsingleton.elim _ _
  show View.canon L ((Rect.unit (s := S3x16x16) off S1x16x16.size inb).emb (ix3 (0 : Fin 1) h l)) = G (ix3 c h l)
  rw [emb_slab c off inb h0 h1 h2 h l]
  exact hL h l

/-- The output block's payload, a shape cast adding a leading unit axis, read at (0, cc, h, l). -/
private theorem pay1_apply (v : Vec F S3x16x16 .f32) (cc : Fin 3) (h l : Fin 16) :
    k0_pay1 v (ix4 0 cc h l) = v (ix3 cc h l) := by
  unfold k0_pay1
  refine (shapeCast_addUnit_apply ![3, 16, 16] v shapeCasts_S3x16x16_S1x3x16x16 (ix4 0 cc h l)).trans ?_
  congr 1
  funext a
  match a with
  | ⟨0, _⟩ => rfl
  | ⟨1, _⟩ => rfl
  | ⟨2, _⟩ => rfl

/-- The zeroing store alone leaves zeros. -/
private theorem canon_zero (inb : ∀ a, (![0, 0, 0] : Fin 3 → Nat) a + S3x16x16.size a ≤ S3x16x16.size a)
    (y : S3x16x16.Idx) :
    View.canon [(⟨Rect.unit ![0, 0, 0] S3x16x16.size inb, k0_pay2⟩ : View.Piece (Elt F) S3x16x16 .f32)] y
      = (zeros : Vec F S3x16x16 .f32) y :=
  congrFun (View.canon_unit_zero (Val := Elt F) (S := S3x16x16) (e := .f32) hz3 inb k0_pay2) y

section
variable (c : Dev nD) (i : grid0.Coords)
  (arg2 : Memref sig .tc .vmem S3x65536 .f32) (harg2 : arg2.IsWhole)
  (arg3 : Memref sig .tc .vmem S1x3x16x16 .f32) (harg3 : arg3.IsWhole)
  (arg4 : Memref sig .tc .vmem S3x16x16 .f32) (harg4 : arg4.IsWhole)

/-- A middle point of a sweep: the accumulator it found, updated. -/
theorem sout_B (hc0 : ¬cond0_0 i) (hc1 : ¬cond0_1 i) (x0 : Vec F S3x65536 .f32) (xs0 : Vec F S3x16x16 .f32) :
    sout0_B_0 c i arg2 harg2 arg3 harg3 arg4 harg4 hc0 hc1 x0 xs0 = upd x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  refine (canon_slabs _ _ _ _ _ _ []).trans ?_
  simp only [View.readAt_eq_ld, harg2.read_unread, harg4.read_unread]
  rw [ld_row 0 x0 ![0, 0] _ rfl rfl, ld_row 1 x0 ![1, 0] _ rfl rfl, ld_row 2 x0 ![2, 0] _ rfl rfl,
    ld_slab 0 xs0 ![0, 0, 0] _ rfl rfl rfl, ld_slab 1 xs0 ![1, 0, 0] _ rfl rfl rfl,
    ld_slab 2 xs0 ![2, 0, 0] _ rfl rfl rfl]
  rfl

/-- The last point of a sweep leaves the same in the accumulator, -/
theorem sout_C (hc0 : ¬cond0_0 i) (hc1 : cond0_1 i) (x0 : Vec F S3x65536 .f32) (xs0 : Vec F S3x16x16 .f32) :
    sout0_C_0 c i arg2 harg2 arg3 harg3 arg4 harg4 hc0 hc1 x0 xs0 = upd x0 xs0 := by
  unfold sout0_C_0
  rw [View.read_writes_eq_canon _ _ _ (scover0_C_0 c i arg2 harg2 arg3 harg3 arg4 harg4 hc0 hc1 x0 xs0)]
  unfold kernelRun0_C
  dsimp only
  sl_unfold_words
  refine (canon_slabs _ _ _ _ _ _ []).trans ?_
  simp only [View.readAt_eq_ld, harg2.read_unread, harg4.read_unread]
  rw [ld_row 0 x0 ![0, 0] _ rfl rfl, ld_row 1 x0 ![1, 0] _ rfl rfl, ld_row 2 x0 ![2, 0] _ rfl rfl,
    ld_slab 0 xs0 ![0, 0, 0] _ rfl rfl rfl, ld_slab 1 xs0 ![1, 0, 0] _ rfl rfl rfl,
    ld_slab 2 xs0 ![2, 0, 0] _ rfl rfl rfl]
  rfl

/-- and copies it to the output block: entry (0, cc, h, l) of the block is entry (cc, h, l). -/
theorem out_C (hc0 : ¬cond0_0 i) (hc1 : cond0_1 i) (x0 : Vec F S3x65536 .f32) (xs0 : Vec F S3x16x16 .f32)
    (cc : Fin 3) (h l : Fin 16) :
    out0_C_1 c i arg2 harg2 arg3 harg3 arg4 harg4 hc0 hc1 x0 xs0 (ix4 0 cc h l) = upd x0 xs0 (ix3 cc h l) := by
  unfold out0_C_1
  rw [View.read_writes_eq_canon _ _ _ (cover0_C_1 c i arg2 harg2 arg3 harg3 arg4 harg4 hc0 hc1 x0 xs0)]
  unfold kernelRun0_C
  dsimp only
  sl_unfold_words
  rw [View.canon_unit_zero (S := S1x3x16x16) hz4, readCov_whole, canon_slabs]
  simp only [View.readAt_eq_ld, harg2.read_unread, harg4.read_unread]
  rw [ld_row 0 x0 ![0, 0] _ rfl rfl, ld_row 1 x0 ![1, 0] _ rfl rfl, ld_row 2 x0 ![2, 0] _ rfl rfl,
    ld_slab 0 xs0 ![0, 0, 0] _ rfl rfl rfl, ld_slab 1 xs0 ![1, 0, 0] _ rfl rfl rfl,
    ld_slab 2 xs0 ![2, 0, 0] _ rfl rfl rfl]
  exact pay1_apply (upd x0 xs0) cc h l

/-- The first point of a sweep zeroes the accumulator, then updates it. -/
theorem sout_A (hc0 : cond0_0 i) (hc1 : ¬cond0_1 i) (x0 : Vec F S3x65536 .f32) :
    sout0_A_0 c i arg2 harg2 arg3 harg3 arg4 harg4 hc0 hc1 x0 = upd x0 zeros := by
  unfold sout0_A_0
  rw [View.read_writes_eq_canon _ _ _ (scover0_A_0 c i arg2 harg2 arg3 harg3 arg4 harg4 hc0 hc1 x0)]
  unfold kernelRun0_A
  dsimp only
  sl_unfold_words
  refine (canon_slabs _ _ _ _ _ _ [_]).trans ?_
  simp only [View.readAt_eq_ld, harg2.read_unread]
  rw [ld_row 0 x0 ![0, 0] _ rfl rfl, ld_row 1 x0 ![1, 0] _ rfl rfl, ld_row 2 x0 ![2, 0] _ rfl rfl]
  rw [readCov_slab arg4.view _ 0 ![0, 0, 0] _ rfl rfl rfl zeros (fun h l => canon_zero _ _)]
  rw [readCov_slab arg4.view _ 1 ![1, 0, 0] _ rfl rfl rfl zeros
    (fun h l => (canon_skip ![0, 0, 0] _ _ _ 1 h l (by decide)).trans (canon_zero _ _))]
  rw [readCov_slab arg4.view _ 2 ![2, 0, 0] _ rfl rfl rfl zeros
    (fun h l => (canon_skip ![1, 0, 0] _ _ _ 2 h l (by decide)).trans
      ((canon_skip ![0, 0, 0] _ _ _ 2 h l (by decide)).trans (canon_zero _ _)))]
  rfl

end

end Cert.KernelIdeal.Pieces

end
-- ==== Proof.Input.lean ====
/-
  What the kernel region reads.  The host transposes the input to channel-major and flattens the
  pixels, so entry (c, N) of the region's input array is the input at pixel N, channel c; block t of
  that array (all three rows, lanes 65536 · t … 65536 · t + 65535) is what the body finds at point t.
-/
import proofs.«130361_j23888608100752_1_alg».proof.Proof.Gen.KernelIdeal.Frame
import proofs.«130361_j23888608100752_1_alg».proof.Proof.Count
import proofs.«130361_j23888608100752_1_alg».proof.Proof.Cases
import Idealize.ShloMosaic.Lib.Pipeline.Value
import Idealize.ShloMosaic.Lib.StableHlo.Run
import Idealize.ShloMosaic.Lib.ValueIdx

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The input array as launched. -/
abbrev inp (c : Dev nD) : Cert.Hist.S64x512x512x3.Idx → EReal := m ((c : Thread nD τ).loc main_arg0)

/-- The region's input array, of its literal type. -/
abbrev xarr (c : Dev nD) : Vec Ideal S3x16777216 .f32 := V m c main_v1

/-- The block the body finds at point t, of its literal type. -/
abbrev xblk (c : Dev nD) (t : Fin cfg0.N) : Vec Ideal S3x65536 .f32 := iblk m c 0 t

/-- The region's input array is the transposed, flattened input. -/
theorem xarr_eq (c : Dev nD) :
    xarr m c = shapeCast S3x16777216 (transpose S3x64x512x512 [3, 0, 1, 2] (inp m c)
      transposes_S64x512x512x3_S3x64x512x512_3_0_1_2) shapeCasts_S3x64x512x512_S3x16777216 := by
  show StableHlo.after hostOps0 (fun b => m (c, b)) (Proc.devRef .tc main_v1) = _
  after_results
  rfl

/-- The flattening read at (cc, N): pixel N is (N / 262144, N / 512 % 512, N % 512), row-major. -/
private theorem flat_apply (y : S3x64x512x512.Idx → EReal) (cc : Fin 3) (N : Fin 16777216) :
    shapeCast S3x16777216 y shapeCasts_S3x64x512x512_S3x16777216 (ix2 cc N)
      = y (ix4 cc ⟨N.val / 262144, by have := N.isLt; omega⟩ ⟨N.val / 512 % 512, Nat.mod_lt _ (by decide)⟩
          ⟨N.val % 512, Nat.mod_lt _ (by decide)⟩) :=
  shapeCast_apply y shapeCasts_S3x64x512x512_S3x16777216 (ix2 cc N) _ (by
    rewrite [Shape.rowMajor_val_four, Shape.rowMajor_val_two]
    have hN := N.isLt
    show ((cc.val * 64 + N.val / 262144) * 512 + N.val / 512 % 512) * 512 + N.val % 512 = cc.val * 16777216 + N.val
    omega)

/-- The channel-major transpose read at (cc, a, b, d) is the input at (a, b, d, cc). -/
private theorem chan_apply (X : S64x512x512x3.Idx → EReal) (cc : Fin 3) (a : Fin 64) (b d : Fin 512) :
    transpose S3x64x512x512 [3, 0, 1, 2] X transposes_S64x512x512x3_S3x64x512x512_3_0_1_2 (ix4 cc a b d)
      = X (ix4 a b d cc) :=
  transpose_apply [3, 0, 1, 2] X transposes_S64x512x512x3_S3x64x512x512_3_0_1_2 (ix4 cc a b d) (ix4 a b d cc)
    (fun k => match k with
      | ⟨0, _⟩ => rfl
      | ⟨1, _⟩ => rfl
      | ⟨2, _⟩ => rfl
      | ⟨3, _⟩ => rfl)

/-- Entry (cc, N) of it is the input at pixel N, channel cc. -/
theorem xarr_apply (c : Dev nD) (cc : Fin 3) (N : Fin 16777216) :
    xarr m c (ix2 cc N) = inp m c (Cert.Hist.pix N cc) := by
  rw [xarr_eq, flat_apply, chan_apply]
  rfl

/-- Block t sits at block index (0, t), at every point of the grid: 128 · i0 + i1 is the point's own number. -/
private theorem win0_0_index : ∀ t : Fin cfg0.N, win0_0.index t (0 : Fin 2) = 0 ∧ win0_0.index t (1 : Fin 2) = t.val :=
  (by decide +kernel : ∀ t : Fin grid0.N, win0_0.index t (0 : Fin 2) = 0 ∧ win0_0.index t (1 : Fin 2) = t.val)

/-- Lane n of row cc of block t is entry (cc, 65536 · t + n) of the array. -/
theorem xblk_apply (c : Dev nD) (t : Fin cfg0.N) (cc : Fin 3) (n : Fin 65536) :
    xblk m c t (ix2 cc n) = xarr m c (ix2 cc ⟨t.val * 65536 + n.val, by
      have : t.val < 256 := lt_of_lt_of_eq t.isLt (show cfg0.N = 256 from N_0); have := n.isLt; omega⟩) := by
  have hi := win0_0_index t
  unfold xblk iblk
  rw [View.read_apply]
  show V m c main_v1 _ = V m c main_v1 _
  congr 1
  funext a
  apply Fin.ext
  match a with
  | ⟨0, _⟩ => show win0_0.index t 0 * 3 + 1 * cc.val = cc.val; rw [hi.1]; omega
  | ⟨1, _⟩ => show win0_0.index t 1 * 65536 + 1 * n.val = t.val * 65536 + n.val; rw [hi.2]; omega

/-- So row cc of the block at point t is row cc of block t of the flattened input. -/
theorem row_xblk (c : Dev nD) (t : Fin cfg0.N) (cc : Fin 3) :
    row cc (xblk m c t) = Cert.Hist.blockRow (inp m c) cc t.val := by
  funext j
  have ht : t.val < 256 := lt_of_lt_of_eq t.isLt (show cfg0.N = 256 from N_0)
  have hj : (j 1).val < 65536 := (j 1).isLt
  -- 65536 · t + n < 16777216, so reducing the pixel number modulo 16777216 changes nothing
  have e : (⟨t.val * 65536 + (j 1).val, by omega⟩ : Fin 16777216)
      = ⟨(t.val * 65536 + (j 1).val) % 16777216, Nat.mod_lt _ (by decide)⟩ :=
    Fin.ext (Nat.mod_eq_of_lt (by omega)).symm
  show xblk m c t (ix2 cc (j 1))
    = inp m c (Cert.Hist.pix ⟨(t.val * 65536 + (j 1).val) % 16777216, Nat.mod_lt _ (by decide)⟩ cc)
  rw [← e]
  exact (xblk_apply m c t cc (j 1)).trans (xarr_apply m c cc _)

end Cert.KernelIdeal.Pieces

end
-- ==== Proof.Bits.lean ====
/-
  Words and digits.  A bin word lies in [0, 255]; on that range the kernel's floor division by 16
  is the plain quotient and the remainder is the plain remainder, so a word is determined by its
  two base-16 digits; and a one-bit comparison widened and converted to a float is 1 or 0.
-/
import proofs.«130361_j23888608100752_1_alg».proof.Proof.Spec

noncomputable section

namespace Cert.Hist

open Idealize.ShloMosaic Idealize.ShloMosaic.ValueIdx

/-- Clamping any 32-bit word to [0, 255] (signed maximum with 0, then signed minimum with 255)
    gives one of the words 0 … 255: a negative word goes to 0, a word above 255 goes to 255, and a
    word whose signed value is already in [0, 255] is its own unsigned value. -/
private theorem clamp_range (z : BitVec 32) :
    ∃ k : Fin 256, IntOp.minsi 255#32 (IntOp.maxsi 0#32 z) = BitVec.ofNat 32 k.val := by
  by_cases h0 : z.slt 0#32 = true
  · have hm : IntOp.maxsi 0#32 z = 0#32 := by unfold IntOp.maxsi; rw [if_pos h0]
    rw [hm]
    exact ⟨⟨0, by decide⟩, by decide⟩
  · have hm : IntOp.maxsi 0#32 z = z := by unfold IntOp.maxsi; rw [if_neg h0]
    rw [hm]
    unfold IntOp.minsi
    by_cases h1 : (255#32).slt z = true
    · rw [if_pos h1]
      exact ⟨⟨255, by decide⟩, rfl⟩
    · rw [if_neg h1]
      rw [BitVec.slt_iff_toInt_lt] at h0 h1
      have e0 : (0#32).toInt = 0 := by decide
      have e255 : (255#32).toInt = 255 := by decide
      rw [e0] at h0
      rw [e255] at h1
      have hz := BitVec.toInt_eq_toNat_cond z
      have hlt := z.isLt
      have hk : z.toNat < 256 := by
        split_ifs at hz <;> omega
      refine ⟨⟨z.toNat, hk⟩, ?_⟩
      apply BitVec.eq_of_toNat_eq
      rw [BitVec.toNat_ofNat]
      exact (Nat.mod_eq_of_lt hlt).symm

/-- A bin word is one of 0 … 255. -/
theorem binOf_range (x : EReal) : ∃ k : Fin 256, binOf x = BitVec.ofNat 32 k.val := by
  unfold binOf
  exact clamp_range _

/-- The digit identities, checked on each of the 256 words. -/
private theorem digits_all : ∀ k : Fin 256,
    hiOf (BitVec.ofNat 32 k.val) = BitVec.ofNat 32 (k.val / 16)
      ∧ loOf (BitVec.ofNat 32 k.val) = BitVec.ofNat 32 (k.val % 16) := by
  decide +kernel

/-- On 0 … 255 the two digits are the quotient and the remainder by 16. -/
theorem digits (k : Fin 256) :
    hiOf (BitVec.ofNat 32 k.val) = BitVec.ofNat 32 (k.val / 16)
      ∧ loOf (BitVec.ofNat 32 k.val) = BitVec.ofNat 32 (k.val % 16) :=
  digits_all k

/-- The ideal conversion of a signed word is its signed value as a real. -/
private theorem sitofp_eq (b : BitVec 32) :
    (FloatOps.sitofp (F := Ideal) .f32 b : EReal) = ((b.toInt : ℝ) : EReal) := rfl

/-- Two numbers below 2^32 have the same 32-bit word exactly when they are equal. -/
private theorem ofNat_inj {a b : ℕ} (ha : a < 2 ^ 32) (hb : b < 2 ^ 32) :
    BitVec.ofNat 32 a = BitVec.ofNat 32 b ↔ a = b := by
  constructor
  · intro h
    have := congrArg BitVec.toNat h
    rw [BitVec.toNat_ofNat, BitVec.toNat_ofNat, Nat.mod_eq_of_lt ha, Nat.mod_eq_of_lt hb] at this
    exact this
  · intro h; rw [h]

/-- The one-bit equality test of two small words, zero-extended to 32 bits and converted, is the
    indicator of equality of the numbers: the bit 1 widens to the word 1 of signed value 1, the
    bit 0 to the word 0. -/
private theorem eq_indicator {a b : ℕ} (ha : a < 2 ^ 32) (hb : b < 2 ^ 32) :
    (FloatOps.sitofp (F := Ideal) .f32
        ((IntOp.cmpi .eq (BitVec.ofNat 32 a) (BitVec.ofNat 32 b)).setWidth 32) : EReal)
      = if a = b then (1 : EReal) else 0 := by
  rw [sitofp_eq]
  unfold IntOp.cmpi
  by_cases hab : a = b
  · subst hab
    rw [if_pos rfl]
    have : (BitVec.ofNat 32 a == BitVec.ofNat 32 a) = true := by simp
    simp only [this]
    have e : ((BitVec.ofBool true).setWidth 32 : BitVec 32).toInt = 1 := by decide
    rw [e]
    norm_num
  · rw [if_neg hab]
    have : (BitVec.ofNat 32 a == BitVec.ofNat 32 b) = false := by
      rw [beq_eq_false_iff_ne]
      intro h
      exact hab ((ofNat_inj ha hb).1 h)
    simp only [this]
    have e : ((BitVec.ofBool false).setWidth 32 : BitVec 32).toInt = 0 := by decide
    rw [e]
    norm_num

/-- The product of the two digit indicators (each a one-bit equality test, widened to 32 bits and
    converted to a float) is the indicator of the bin 16 · h + l. -/
theorem onehot_mul (x : EReal) (h l : Fin 16) :
    (FloatOps.sitofp (F := Ideal) .f32 ((IntOp.cmpi .eq (hiOf (binOf x)) (BitVec.ofNat 32 h.val)).setWidth 32) : EReal)
      * (FloatOps.sitofp (F := Ideal) .f32 ((IntOp.cmpi .eq (loOf (binOf x)) (BitVec.ofNat 32 l.val)).setWidth 32) : EReal)
      = if binOf x = BitVec.ofNat 32 (16 * h.val + l.val) then (1 : EReal) else 0 := by
  -- the bin word is some k in 0 … 255, with digits k / 16 and k % 16; and k = 16 h + l exactly
  -- when k / 16 = h and k % 16 = l (h, l < 16)
  obtain ⟨k, hk⟩ := binOf_range x
  obtain ⟨hh, hl⟩ := digits k
  have hkl := k.isLt
  have hhl := h.isLt
  have hll := l.isLt
  rw [hk, hh, hl, eq_indicator (by omega) (by omega), eq_indicator (by omega) (by omega)]
  by_cases e1 : k.val / 16 = h.val
  · by_cases e2 : k.val % 16 = l.val
    · have e3 : k.val = 16 * h.val + l.val := by omega
      rw [if_pos e1, if_pos e2, if_pos (by rw [e3]), mul_one]
    · have e3 : ¬ k.val = 16 * h.val + l.val := by omega
      rw [if_pos e1, if_neg e2, if_neg (fun hc => e3 ((ofNat_inj (by omega) (by omega)).1 hc)), mul_zero]
  · have e3 : ¬ k.val = 16 * h.val + l.val := by omega
    rw [if_neg e1, if_neg (fun hc => e3 ((ofNat_inj (by omega) (by omega)).1 hc)), zero_mul]

/-- A row's sum of bin indicators is the row's count of that bin. -/
theorem sum_indicator (x : S1x65536.Idx → EReal) (h l : Fin 16) :
    (∑ n : Fin 65536, (if binOf (x (ix2 0 n)) = BitVec.ofNat 32 (16 * h.val + l.val) then (1 : EReal) else 0))
      = ((slabCount x h l : ℕ) : EReal) := by
  -- the sum splits into ones over the samples in the bin and zeros over the rest
  rw [Finset.sum_ite, Finset.sum_const, Finset.sum_const_zero, add_zero, nsmul_one]
  rfl

end Cert.Hist

end
-- ==== Proof.Payload.lean ====
/-
  One slab's update at an index, at the ideal instance: entry (h, l) of the stored slab is the
  entry found plus the number of the row's samples whose bin is 16 · h + l.  (The two one-hot
  matrices' product, summed over the 65536 lanes, counts the lanes whose high digit is h and low
  digit is l; a format change is the identity, and the product starts from a zero accumulator.)
-/
import proofs.«130361_j23888608100752_1_alg».proof.Proof.Cases
import proofs.«130361_j23888608100752_1_alg».proof.Proof.Bits
import Idealize.ShloMosaic.PureOps.Ideal.Laws

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen Cert.Hist

/-- A [1, b] row broadcast down 16 rows reads the row. -/
private theorem bc_row_apply {α : Type} (v : S1x65536.Idx → α) (p : Fin 16) (n : Fin 65536) :
    broadcastTo S16x65536 v broadcasts_S1x65536_S16x65536 (ix2 p n) = v (ix2 0 n) := by
  refine broadcastTo_apply v _ (ix2 p n) (ix2 0 n) fun ax => ?_
  match ax with
  | ⟨0, _⟩ => rfl
  | ⟨1, _⟩ => rfl

/-- A [16, 1] column broadcast along 65536 lanes reads the column. -/
private theorem bc_col_apply {α : Type} (v : S16x1.Idx → α) (p : Fin 16) (n : Fin 65536) :
    broadcastTo S16x65536 v broadcasts_S16x1_S16x65536 (ix2 p n) = v (ix2 p 0) := by
  refine broadcastTo_apply v _ (ix2 p n) (ix2 p 0) fun ax => ?_
  match ax with
  | ⟨0, _⟩ => rfl
  | ⟨1, _⟩ => rfl

/-- The row iota reads the row number. -/
private theorem iotaV_apply (p : Fin 16) : iotaV (ix2 p 0) = BitVec.ofNat 32 p.val := by
  show iota .tc S16x1 32 [0] iota_S16x1_d0_w32 (ix2 p 0) = _
  rw [iota_single_apply]

/-! The product's operand indices, axis by axis: both operands keep axis 0 and contract axis 1. -/

private theorem lhs_ax0 (h l : Fin 16) (k : dot_S16x65536_S16x65536_S16x16_1_1_0_0_n_n.contr.Idx) :
    (dot_S16x65536_S16x65536_S16x16_1_1_0_0_n_n.lhsIdx (ix2 h l) k 0).val = h.val := by
  simp [DotDims.lhsIdx, dot_S16x65536_S16x65536_S16x16_1_1_0_0_n_n]; rfl

private theorem rhs_ax0 (h l : Fin 16) (k : dot_S16x65536_S16x65536_S16x16_1_1_0_0_n_n.contr.Idx) :
    (dot_S16x65536_S16x65536_S16x16_1_1_0_0_n_n.rhsIdx (ix2 h l) k 0).val = l.val := by
  simp [DotDims.rhsIdx, dot_S16x65536_S16x65536_S16x16_1_1_0_0_n_n]; rfl

private theorem lhs_ax1 (h l : Fin 16) (k : dot_S16x65536_S16x65536_S16x16_1_1_0_0_n_n.contr.Idx) :
    (dot_S16x65536_S16x65536_S16x16_1_1_0_0_n_n.lhsIdx (ix2 h l) k 1).val = (k ⟨0, by decide⟩).val :=
  dot_S16x65536_S16x65536_S16x16_1_1_0_0_n_n.lhsIdx_val_of_single rfl (ix2 h l) k

private theorem rhs_ax1 (h l : Fin 16) (k : dot_S16x65536_S16x65536_S16x16_1_1_0_0_n_n.contr.Idx) :
    (dot_S16x65536_S16x65536_S16x16_1_1_0_0_n_n.rhsIdx (ix2 h l) k 1).val = (k ⟨0, by decide⟩).val :=
  dot_S16x65536_S16x65536_S16x16_1_1_0_0_n_n.rhsIdx_val_of_single rfl (ix2 h l) k

/-- Entry (h, l) of the product from a zero accumulator: the sum over the lanes of the products of
    row h of the left operand and row l of the right. -/
private theorem mm_apply {φ₁ φ₂ : FTy} (A : FVec Ideal S16x65536 φ₁) (B : FVec Ideal S16x65536 φ₂) (h l : Fin 16) :
    matmul dot_S16x65536_S16x65536_S16x16_1_1_0_0_n_n none A B (constant (F := Ideal) S16x16 .f32 0x00000000#32) (ix2 h l)
      = ∑ n : Fin 65536, A (ix2 h n) * B (ix2 l n) := by
  show FloatOps.matmul _ none A B _ (ix2 h l) = _
  rw [Ideal.matmul_constant_zero_apply,
    ← Equiv.sum_comp (contrEquiv1 dot_S16x65536_S16x65536_S16x16_1_1_0_0_n_n 65536 rfl rfl).symm]
  refine Finset.sum_congr rfl fun c _ => ?_
  have c2 := contrEquiv1_symm_val dot_S16x65536_S16x65536_S16x16_1_1_0_0_n_n 65536 rfl rfl c
  have l2 : dot_S16x65536_S16x65536_S16x16_1_1_0_0_n_n.lhsIdx (ix2 h l)
      ((contrEquiv1 dot_S16x65536_S16x65536_S16x16_1_1_0_0_n_n 65536 rfl rfl).symm c) = ix2 h c := by
    funext ax; apply Fin.ext
    match ax with
    | ⟨0, _⟩ => exact lhs_ax0 _ _ _
    | ⟨1, _⟩ => exact (lhs_ax1 _ _ _).trans c2
  have r2 : dot_S16x65536_S16x65536_S16x16_1_1_0_0_n_n.rhsIdx (ix2 h l)
      ((contrEquiv1 dot_S16x65536_S16x65536_S16x16_1_1_0_0_n_n 65536 rfl rfl).symm c) = ix2 l c := by
    funext ax; apply Fin.ext
    match ax with
    | ⟨0, _⟩ => exact rhs_ax0 _ _ _
    | ⟨1, _⟩ => exact (rhs_ax1 _ _ _).trans c2
  rw [l2, r2]

/-- A [16, 16] matrix stored as a [1, 16, 16] slab reads (h, l) at (0, h, l). -/
private theorem cast_add_apply {α : Type} (v : S16x16.Idx → α) (h l : Fin 16) :
    shapeCast S1x16x16 v shapeCasts_S16x16_S1x16x16 (ix3 0 h l) = v (ix2 h l) := by
  refine shapeCast_apply v _ (ix3 0 h l) (ix2 h l) ?_
  rw [Shape.rowMajor_val_two, Shape.rowMajor_val_three]
  show h.val * 16 + l.val = (0 * 16 + h.val) * 16 + l.val
  omega

/-- A [1, 16, 16] slab viewed as a [16, 16] matrix reads (0, h, l) at (h, l). -/
private theorem cast_drop_apply {α : Type} (v : S1x16x16.Idx → α) (h l : Fin 16) :
    shapeCast S16x16 v shapeCasts_S1x16x16_S16x16 (ix2 h l) = v (ix3 0 h l) := by
  refine shapeCast_apply v _ (ix2 h l) (ix3 0 h l) ?_
  rw [Shape.rowMajor_val_two, Shape.rowMajor_val_three]
  show (0 * 16 + h.val) * 16 + l.val = h.val * 16 + l.val
  omega

/-- The slab the body stores from the two digit vectors: entry (h, l) is the entry found plus the
    number of lanes whose high digit is h and low digit is l. -/
private theorem core (x : Vec Ideal S1x65536 .f32) (hi lo : IVec S1x65536 32) (prev : Vec Ideal S1x16x16 .f32) (h l : Fin 16)
    (hhi : ∀ n : Fin 65536, hi (ix2 0 n) = hiOf (binOf (x (ix2 0 n))))
    (hlo : ∀ n : Fin 65536, lo (ix2 0 n) = loOf (binOf (x (ix2 0 n)))) :
    shapeCast S1x16x16
      (addf (shapeCast S16x16 prev shapeCasts_S1x16x16_S16x16)
        (matmul dot_S16x65536_S16x65536_S16x16_1_1_0_0_n_n none
          (truncf .bf16 (sitofp (F := Ideal) .f32 (extui 32 (cmpi .eq (broadcastTo S16x65536 hi broadcasts_S1x65536_S16x65536)
            (broadcastTo S16x65536 iotaV broadcasts_S16x1_S16x65536)) natLt_1_32)) bitsLt_bf16_f32)
          (truncf .bf16 (sitofp (F := Ideal) .f32 (extui 32 (cmpi .eq (broadcastTo S16x65536 lo broadcasts_S1x65536_S16x65536)
            (broadcastTo S16x65536 iotaV broadcasts_S16x1_S16x65536)) natLt_1_32)) bitsLt_bf16_f32)
          (constant (F := Ideal) S16x16 .f32 0x00000000#32)))
      shapeCasts_S16x16_S1x16x16 (ix3 0 h l)
    = prev (ix3 0 h l) + ((slabCount x h l : ℕ) : EReal) := by
  rw [cast_add_apply, addf_apply, cast_drop_apply, mm_apply]
  refine congrArg (prev (ix3 0 h l) + ·) ?_
  rw [← sum_indicator x h l]
  refine Finset.sum_congr rfl fun n _ => ?_
  rw [← onehot_mul (x (ix2 0 n)) h l]
  rw [truncf_apply, truncf_apply, sitofp_apply, sitofp_apply, extui_apply, extui_apply]
  show FloatOps.sitofp (F := Ideal) .f32 ((IntOp.cmpi .eq
        (broadcastTo S16x65536 hi broadcasts_S1x65536_S16x65536 (ix2 h n))
        (broadcastTo S16x65536 iotaV broadcasts_S16x1_S16x65536 (ix2 h n))).setWidth 32)
      * FloatOps.sitofp (F := Ideal) .f32 ((IntOp.cmpi .eq
        (broadcastTo S16x65536 lo broadcasts_S1x65536_S16x65536 (ix2 l n))
        (broadcastTo S16x65536 iotaV broadcasts_S16x1_S16x65536 (ix2 l n))).setWidth 32) = _
  rw [bc_row_apply, bc_row_apply, bc_col_apply, bc_col_apply, iotaV_apply, iotaV_apply, hhi, hlo]

/-- The bin word of lane n, as each row's payload spells it. -/
private theorem pay3_apply (x : Vec Ideal S1x65536 .f32) (n : Fin 65536) :
    k0_pay3 x (ix2 0 n) = binOf (x (ix2 0 n)) := by
  unfold k0_pay3
  simp only [shapeCast_self]
  rfl

private theorem pay9_apply (x : Vec Ideal S1x65536 .f32) (n : Fin 65536) :
    k0_pay9 x (ix2 0 n) = binOf (x (ix2 0 n)) := by
  unfold k0_pay9
  simp only [shapeCast_self]
  rfl

private theorem pay13_apply (x : Vec Ideal S1x65536 .f32) (n : Fin 65536) :
    k0_pay13 x (ix2 0 n) = binOf (x (ix2 0 n)) := by
  unfold k0_pay13
  simp only [shapeCast_self]
  rfl

theorem pay8_apply (x : Vec Ideal S1x65536 .f32) (prev : Vec Ideal S1x16x16 .f32) (h l : Fin 16) :
    k0_pay8 (F := Ideal) iotaV (k0_pay5 x) (k0_pay6 x) k0_pay7 prev (ix3 0 h l)
      = prev (ix3 0 h l) + ((slabCount x h l : ℕ) : EReal) := by
  -- the two digit vectors are the high and the low digit of each lane's bin word, by definition
  refine core x (k0_pay4 x) (k0_pay5 x) prev h l (fun n => ?_) (fun n => ?_)
  · rw [← pay3_apply]; rfl
  · rw [← pay3_apply]; rfl

theorem pay12_apply (x : Vec Ideal S1x65536 .f32) (prev : Vec Ideal S1x16x16 .f32) (h l : Fin 16) :
    k0_pay12 (F := Ideal) iotaV (k0_pay9 x) 16#32 (k0_pay10 x) (k0_pay11 x) prev (ix3 0 h l)
      = prev (ix3 0 h l) + ((slabCount x h l : ℕ) : EReal) := by
  refine core x _ _ prev h l (fun n => ?_) (fun n => ?_)
  · rw [← pay9_apply]; rfl
  · rw [← pay9_apply]; rfl

theorem pay16_apply (x : Vec Ideal S1x65536 .f32) (prev : Vec Ideal S1x16x16 .f32) (h l : Fin 16) :
    k0_pay16 (F := Ideal) iotaV (k0_pay13 x) 16#32 (k0_pay14 x) k0_pay15 prev (ix3 0 h l)
      = prev (ix3 0 h l) + ((slabCount x h l : ℕ) : EReal) := by
  refine core x _ _ prev h l (fun n => ?_) (fun n => ?_)
  · rw [← pay13_apply]; rfl
  · rw [← pay13_apply]; rfl

/-- The accumulator after a point, at (cc, h, l): what it held plus row cc's count of bin 16 · h + l. -/
theorem upd_apply (x0 : Vec Ideal S3x65536 .f32) (xs : Vec Ideal S3x16x16 .f32) (cc : Fin 3) (h l : Fin 16) :
    upd x0 xs (ix3 cc h l) = xs (ix3 cc h l) + ((slabCount (row cc x0) h l : ℕ) : EReal) := by
  -- at each literal channel the chain of tests on the channel selects that channel's slab
  match cc with
  | ⟨0, _⟩ => exact pay8_apply (row 0 x0) (slab 0 xs) h l
  | ⟨1, _⟩ => exact pay12_apply (row 1 x0) (slab 1 xs) h l
  | ⟨2, _⟩ => exact pay16_apply (row 2 x0) (slab 2 xs) h l

/-- The zero accumulator is zero. -/
theorem zeros_apply (j : S3x16x16.Idx) : (zeros (F := Ideal)) j = (0 : EReal) := by
  show k0_pay2 (F := Ideal) j = 0
  unfold k0_pay2
  simp only [shapeCast_self]
  exact Ideal.ofBits_zero_f32

end Cert.KernelIdeal.Pieces

end
-- ==== Proof.Accum.lean ====
/-
  The accumulator point by point.  After the body at point n the carried accumulator holds, at
  (cc, h, l), the running count of bin 16 · h + l over the blocks of the current sweep up to block n
  (row cc); at the last point of a sweep the output block holds the same.  By induction on the
  point: the first point of a sweep starts from zero, every other point adds its block's count to
  what the point before left.
-/
import proofs.«130361_j23888608100752_1_alg».proof.Proof.Input
import proofs.«130361_j23888608100752_1_alg».proof.Proof.Payload

set_option maxRecDepth 16384

noncomputable section

namespace Cert.KernelIdeal.Pieces

open Idealize.ShloMosaic Idealize.ShloMosaic.TcCoe Idealize.SL.Sem Idealize.ShloMosaic.ValueIdx
open Cert.KernelIdeal Cert.KernelIdeal.Gen Cert.Hist

variable (m : (ℓ : Loc nD τ sig) → Buf (Elt Ideal) ℓ)

/-- One point's update at an index, in counts: what was there plus the point's block count. -/
theorem upd_xblk (c : Dev nD) (t : Fin cfg0.N) (xs : Vec Ideal S3x16x16 .f32) (cc : Fin 3) (h l : Fin 16) :
    upd (xblk m c t) xs (ix3 cc h l) = xs (ix3 cc h l) + ((blockCount (inp m c) cc h l t.val : ℕ) : EReal) := by
  rw [upd_apply, row_xblk]; rfl

/-- What the point before left in the accumulator. -/
abbrev prevAcc (c : Dev nD) (t : Fin cfg0.N) : Vec Ideal S3x16x16 .f32 :=
  (outsAt0 m c (t.val - 1) (Nat.lt_of_le_of_lt (Nat.sub_le _ _) t.isLt)).2

/-- The first point of a sweep leaves its own block's count. -/
theorem acc_first (c : Dev nD) (cc : Fin 3) (h l : Fin 16) (t : Fin cfg0.N) (h0 : t.val % 128 = 0) :
    (outsAt0 m c t.val t.isLt).2 (ix3 cc h l) = ((running (inp m c) cc h l t.val : ℕ) : EReal) := by
  have h1 : ¬ t.val % 128 = 127 := by omega
  rw [outsAt0_A m c t h0 h1]
  dsimp only
  refine (congrFun (sout_A (F := Ideal) c (grid0.coords t) (ms0_0 t) (hs0_0 t) (ms0_1 t) (hs0_1 t) scM0_0
    (Memref.isWhole_whole _) ((hcond0_0 t).mpr h0) (fun h => h1 ((hcond0_1 t).mp h)) (iblk m c 0 t)) (ix3 cc h l)).trans ?_
  refine (upd_xblk m c t zeros cc h l).trans ?_
  rw [zeros_apply, zero_add, running_first _ _ _ _ _ h0]

/-- A middle point adds its block's count to what the point before left. -/
theorem acc_middle (c : Dev nD) (cc : Fin 3) (h l : Fin 16) (t : Fin cfg0.N) (h0 : ¬ t.val % 128 = 0)
    (h1 : ¬ t.val % 128 = 127)
    (ih : prevAcc m c t (ix3 cc h l) = ((running (inp m c) cc h l (t.val - 1) : ℕ) : EReal)) :
    (outsAt0 m c t.val t.isLt).2 (ix3 cc h l) = ((running (inp m c) cc h l t.val : ℕ) : EReal) := by
  have ht0 : t.val ≠ 0 := fun e => h0 (by rw [e])
  rw [outsAt0_B m c t h0 h1]
  dsimp only
  refine (congrFun (sout_B (F := Ideal) c (grid0.coords t) (ms0_0 t) (hs0_0 t) (ms0_1 t) (hs0_1 t) scM0_0
    (Memref.isWhole_whole _) (fun h => h0 ((hcond0_0 t).mp h)) (fun h => h1 ((hcond0_1 t).mp h)) (iblk m c 0 t)
    (prevAcc m c t)) (ix3 cc h l)).trans ?_
  refine (upd_xblk m c t (prevAcc m c t) cc h l).trans ?_
  rw [running_next _ _ _ _ _ ht0 h0, Nat.cast_add, ih]

/-- So does the last point of a sweep, -/
theorem acc_last (c : Dev nD) (cc : Fin 3) (h l : Fin 16) (t : Fin cfg0.N) (h0 : ¬ t.val % 128 = 0)
    (h1 : t.val % 128 = 127)
    (ih : prevAcc m c t (ix3 cc h l) = ((running (inp m c) cc h l (t.val - 1) : ℕ) : EReal)) :
    (outsAt0 m c t.val t.isLt).2 (ix3 cc h l) = ((running (inp m c) cc h l t.val : ℕ) : EReal) := by
  have ht0 : t.val ≠ 0 := fun e => h0 (by rw [e])
  rw [outsAt0_C m c t h0 h1]
  dsimp only
  refine (congrFun (sout_C (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (prevAcc m c t)) (ix3 cc h l)).trans ?_
  refine (upd_xblk m c t (prevAcc m c t) cc h l).trans ?_
  rw [running_next _ _ _ _ _ ht0 h0, Nat.cast_add, ih]

/-- and its output block holds the same. -/
theorem out_last (c : Dev nD) (cc : Fin 3) (h l : Fin 16) (t : Fin cfg0.N) (h0 : ¬ t.val % 128 = 0)
    (h1 : t.val % 128 = 127)
    (ih : prevAcc m c t (ix3 cc h l) = ((running (inp m c) cc h l (t.val - 1) : ℕ) : EReal)) :
    (outsAt0 m c t.val t.isLt).1 (ix4 0 cc h l) = ((running (inp m c) cc h l t.val : ℕ) : EReal) := by
  have ht0 : t.val ≠ 0 := fun e => h0 (by rw [e])
  rw [outsAt0_C m c t h0 h1]
  dsimp only
  refine (out_C (F := Ideal) c (grid0.coords t) (ms0_0 t) (hs0_0 t) (ms0_1 t) (hs0_1 t) scM0_0
    (Memref.isWhole_whole _) (fun h => h0 ((hcond0_0 t).mp h)) ((hcond0_1 t).mpr h1) (iblk m c 0 t)
    (prevAcc m c t) cc h l).trans ?_
  refine (upd_xblk m c t (prevAcc m c t) cc h l).trans ?_
  rw [running_next _ _ _ _ _ ht0 h0, Nat.cast_add, ih]

/-- The accumulator after point n is the running count: by induction on the point. -/
theorem acc_eq (c : Dev nD) (cc : Fin 3) (h l : Fin 16) : ∀ (n : ℕ) (hn : n < cfg0.N),
    (outsAt0 m c n hn).2 (ix3 cc h l) = ((running (inp m c) cc h l n : ℕ) : EReal) := by
  intro n
  induction n with
  | zero => intro hn; exact acc_first m c cc h l ⟨0, hn⟩ rfl
  | succ n ih =>
    intro hn
    by_cases h0 : (n + 1) % 128 = 0
    · exact acc_first m c cc h l ⟨n + 1, hn⟩ h0
    · have ihn : prevAcc m c ⟨n + 1, hn⟩ (ix3 cc h l) = ((running (inp m c) cc h l ((n + 1) - 1) : ℕ) : EReal) :=
        ih (Nat.lt_of_succ_lt hn)
      by_cases h1 : (n + 1) % 128 = 127
      · exact acc_last m c cc h l ⟨n + 1, hn⟩ h0 h1 ihn
      · exact acc_middle m c cc h l ⟨n + 1, hn⟩ h0 h1 ihn

/-- At the last point of a sweep the output block holds the sweep's final running count. -/
theorem out_eq (c : Dev nD) (cc : Fin 3) (h l : Fin 16) (t : Fin cfg0.N) (h1 : t.val % 128 = 127) :
    (outsAt0 m c t.val t.isLt).1 (ix4 0 cc h l) = ((running (inp m c) cc h l t.val : ℕ) : EReal) :=
  out_last m c cc h l t (by omega) h1 (acc_eq m c cc h l (t.val - 1) _)

end Cert.KernelIdeal.Pieces

end
-- ==== Proof.Final.lean ====
/-
  The region's output array after the run.  The output block (sweep p, all of [3, 16, 16]) is
  written back once, after the last point of sweep p, and holds that sweep's final running counts;
  the two blocks tile the [2, 3, 16, 16] array.
-/
import proofs.«130361_j23888608100752_1_alg».proof.Proof.Accum

set_option maxRecDepth 16384

noncomputable section

namespace Cert.KernelIdeal.Pieces

open Idealize.ShloMosaic Idealize.ShloMosaic.TcCoe Idealize.SL.Sem Idealize.ShloMosaic.ValueIdx
open Idealize.ShloMosaic.Pipeline (Dat)
open Cert.KernelIdeal Cert.KernelIdeal.Gen Cert.Hist

variable (m : (ℓ : Loc nD τ sig) → Buf (Elt Ideal) ℓ)

/-- Entry (p, cc, h, l): sweep p's count of bin 16 · h + l in channel cc. -/
def outArr (c : Dev nD) : Buf (Elt Ideal) ((c : Thread nD τ).loc main_v2) :=
  fun j => ((running (inp m c) (j 1) (j 2) (j 3) ((j 0).val * 128 + 127) : ℕ) : EReal)

/-- The output window's block index at point t is (t / 128, 0, 0, 0): decided over the grid. -/
theorem out_index : ∀ t : Fin cfg0.N, win0_1.index t (0 : Fin 4) = t.val / 128 ∧ win0_1.index t (1 : Fin 4) = 0
    ∧ win0_1.index t (2 : Fin 4) = 0 ∧ win0_1.index t (3 : Fin 4) = 0 :=
  (by decide +kernel : ∀ t : Fin grid0.N, win0_1.index t (0 : Fin 4) = t.val / 128 ∧ win0_1.index t (1 : Fin 4) = 0
    ∧ win0_1.index t (2 : Fin 4) = 0 ∧ win0_1.index t (3 : Fin 4) = 0)

/-- What the last point of a sweep leaves in the output block, at any index of the block. -/
theorem out_block (c : Dev nD) (t : Fin cfg0.N) (h1 : t.val % 128 = 127) (y : S1x3x16x16.Idx) :
    (outsAt0 m c t.val t.isLt).1 y = ((running (inp m c) (y 1) (y 2) (y 3) t.val : ℕ) : EReal) := by
  have e : y = ix4 0 (y 1) (y 2) (y 3) := by
    funext a
    match a with
    | ⟨0, _⟩ => exact Fin.ext (by
        have : (y 0).val < 1 := (y 0).isLt
        show (y 0).val = 0
        omega)
    | ⟨1, _⟩ => rfl
    | ⟨2, _⟩ => rfl
    | ⟨3, _⟩ => rfl
  rw [e]
  exact out_eq m c (y 1) (y 2) (y 3) t h1

/-- What a flushing point writes back is its block of the array of sweep counts. -/
theorem flushed_eq (c : Dev nD) (t : Fin cfg0.N) (hf : (cfg0.win 1).flush t = true) :
    (dats m 0 c).flushed 1 t = ((cfg0.win 1).blk t).view.read (Elt Ideal) (outArr m c) := by
  have h1 : t.val % 128 = 127 := (flush0_1 t).mp hf
  have hN : t.val < 256 := lt_of_lt_of_eq t.isLt (show cfg0.N = 256 from N_0)
  obtain ⟨e0, e1, e2, e3⟩ := out_index t
  show (cfg0.win 1).cut (grid0.coords t) ((dats m 0 c).after 1 t) = _
  rw [after0_1]
  funext j
  refine (out_block m c t h1 j).trans ?_
  show _ = outArr m c (((cfg0.win 1).blk t).view.emb j)
  unfold outArr
  have hj0 : (j 0).val = 0 := by have : (j 0).val < 1 := (j 0).isLt; omega
  have k0 : ((((cfg0.win 1).blk t).view.emb j) 0).val = t.val / 128 := by
    show win0_1.index t (0 : Fin 4) * 1 + 1 * (j 0).val = _; omega
  have k1 : (((cfg0.win 1).blk t).view.emb j) 1 = j 1 := Fin.ext (by
    show win0_1.index t (1 : Fin 4) * 3 + 1 * (j 1).val = _; omega)
  have k2 : (((cfg0.win 1).blk t).view.emb j) 2 = j 2 := Fin.ext (by
    show win0_1.index t (2 : Fin 4) * 16 + 1 * (j 2).val = _; omega)
  have k3 : (((cfg0.win 1).blk t).view.emb j) 3 = j 3 := Fin.ext (by
    show win0_1.index t (3 : Fin 4) * 16 + 1 * (j 3).val = _; omega)
  rw [k0, k1, k2, k3, show t.val / 128 * 128 + 127 = t.val by omega]

/-- An index of the array is in point t's block iff each coordinate is in the block's range. -/
theorem mem_blk (t : Fin cfg0.N) (i : S2x3x16x16.Idx) :
    i ∈ ((cfg0.win 1).blk t).view.set ↔ ∀ a : Fin 4, win0_1.index t a * S1x3x16x16.size a ≤ (i a).val
      ∧ (i a).val < win0_1.index t a * S1x3x16x16.size a + S1x3x16x16.size a := by
  show i ∈ ((View.whole main_v2).slice (win0_1.rect t)).set ↔ _
  rw [View.set_slice_whole, Rect.mem_set_unit]
  exact Iff.rfl

/-- Every index of the array is in the block written back after its sweep's last point. -/
theorem covered (i : S2x3x16x16.Idx) :
    ∃ t : Fin cfg0.N, (cfg0.win 1).flush t = true ∧ i ∈ ((cfg0.win 1).blk t).view.set := by
  have hi0 : (i 0).val < 2 := (i 0).isLt
  have hi1 : (i 1).val < 3 := (i 1).isLt
  have hi2 : (i 2).val < 16 := (i 2).isLt
  have hi3 : (i 3).val < 16 := (i 3).isLt
  let t : Fin cfg0.N := ⟨(i 0).val * 128 + 127, by rw [show cfg0.N = 256 from N_0]; omega⟩
  have ht : t.val = (i 0).val * 128 + 127 := rfl
  obtain ⟨e0, e1, e2, e3⟩ := out_index t
  refine ⟨t, (flush0_1 t).mpr (by rw [ht]; omega), ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 16 ≤ (i 2).val ∧ (i 2).val < win0_1.index t (2 : Fin 4) * 16 + 16; omega
  | ⟨3, _⟩ => show win0_1.index t (3 : Fin 4) * 16 ≤ (i 3).val ∧ (i 3).val < win0_1.index t (3 : Fin 4) * 16 + 16; omega

/-- So the array ends holding the sweep counts. -/
theorem final (c : Dev nD) : (dats m 0 c).arrAt 1 cfg0.N = outArr m c :=
  (dats m 0 c).arrAt_eq_of_cover 1 (outArr m c) (flushed_eq m c) (covered)

end Cert.KernelIdeal.Pieces

end
-- ==== Proof.Tail.lean ====
/-
  The host operations after the region.  They sum the two sweeps' counts (0 + sweep 0 + sweep 1),
  flatten the digit pair (h, l) to the bin 16 · h + l, and normalize: so the array they normalize
  is the array of the channels' counts, and the program's result is its normalization.
-/
import proofs.«130361_j23888608100752_1_alg».proof.Proof.Final
import Idealize.ShloMosaic.Lib.StableHlo.Run
import Idealize.ShloMosaic.PureOps.Ideal.Laws

set_option maxRecDepth 16384

noncomputable section

namespace Cert.KernelIdeal.Pieces

open Idealize.ShloMosaic Idealize.ShloMosaic.TcCoe Idealize.SL.Sem Idealize.ShloMosaic.ValueIdx
open Idealize.ShloMosaic.Pipeline (Dat)
open Cert.KernelIdeal Cert.KernelIdeal.Gen Cert.Hist

variable (m : (ℓ : Loc nD τ sig) → Buf (Elt Ideal) ℓ)

/-- The two sweeps' counts added and flattened to [3, 256]. -/
def summed (c : Dev nD) : FVec Ideal S3x256 .f32 :=
  shapeCast S3x256 (Host.reduceAdd (outArr m c) (constant (F := Ideal) S_ .f32 0x00000000#32)
    reducesTo_S2x3x16x16_S3x16x16_d0 h_S_) shapeCasts_S3x16x16_S3x256

/-- The result buffer after the tail is the normalization of the summed counts. -/
theorem tail_eq (c : Dev nD) :
    Pipeline.afterTail₀ cfgs (dats m) 0 (V0 m) [hostOps1] c main_v9
      = normalize (summed m c) reducesTo_S3x256_S3_d1 h_S_ bcast_S3_S3x1_0 bcast_S3x1_S3x256_0_1
          transposes_S3x256_S256x3_1_0 := by
  unfold Pipeline.afterTail₀
  show StableHlo.after hostOps1 _ (Proc.devRef .tc main_v9) = _
  after_results
  rw [(Pipeline.withArrays_arr spec0 launch0.win.arr_inj c _ _ 1).trans (final m c)]
  rfl

/-- The summed counts are the channels' counts. -/
theorem summed_eq (c : Dev nD) : summed m c = counts (inp m c) := by
  funext i
  obtain ⟨cc, b, rfl⟩ : ∃ (cc : Fin 3) (b : Fin 256), i = ix2 cc b := ⟨i 0, i 1, eq_ix2 i⟩
  have hb : b.val < 256 := b.isLt
  have hcc : cc.val < 3 := cc.isLt
  -- the flattened bin b is the digit pair (b / 16, b % 16)
  have hsc : summed m c (ix2 cc b)
      = Host.reduceAdd (outArr m c) (constant (F := Ideal) S_ .f32 0x00000000#32)
          reducesTo_S2x3x16x16_S3x16x16_d0 h_S_
          (ix3 cc ⟨b.val / 16, by omega⟩ ⟨b.val % 16, Nat.mod_lt _ (by decide)⟩) := by
    unfold summed
    exact shapeCast_apply _ shapeCasts_S3x16x16_S3x256 (ix2 cc b) _ (by
      rewrite [Shape.rowMajor_val_three, Shape.rowMajor_val_two]
      show (cc.val * 16 + b.val / 16) * 16 + b.val % 16 = cc.val * 256 + b.val
      omega)
  rw [hsc]
  -- the host's sum over the sweep axis: zero plus the two sweeps' entries
  simp only [Host.reduceAdd, Ideal.hostReduceAdd_def]
  rw [Ideal.hostReduceAdd_single reducesTo_S2x3x16x16_S3x16x16_d0 (by decide)]
  show _ + (∑ k : Fin 2, _) = _
  rw [Fin.sum_univ_two]
  show Ideal.ofBits .f32 0x00000000#32
      + (((running (inp m c) cc ⟨b.val / 16, _⟩ ⟨b.val % 16, _⟩ (0 * 128 + 127) : ℕ) : EReal)
        + ((running (inp m c) cc ⟨b.val / 16, _⟩ ⟨b.val % 16, _⟩ (1 * 128 + 127) : ℕ) : EReal))
      = ((count (inp m c) cc b : ℕ) : EReal)
  rw [Ideal.ofBits_zero_f32, zero_add, ← Nat.cast_add, count_eq_running]

/-- The program's result, as one function of the input: the normalized counts. -/
abbrev result (c : Dev nD) : Buf (Elt Ideal) ((c : Thread nD τ).loc main_v9) :=
  normalize (counts (inp m c)) reducesTo_S3x256_S3_d1 h_S_ bcast_S3_S3x1_0 bcast_S3x1_S3x256_0_1
    transposes_S3x256_S256x3_1_0

/-- The run, read: the result buffer at the normalized counts, the argument unchanged. -/
theorem run (ρ : Dev nD → PrngReg) :
    θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0) :=
  (θ_run defs _ _).mono (fun _ h c =>
      ⟨((h c).2 main_v9 (Pipeline.mem_restRefs_of main_v9 (by decide) (by decide))).trans
          ((tail_eq m c).trans (by rw [summed_eq])),
        ((h c).2 main_arg0 (Pipeline.mem_restRefs_of main_arg0 (by decide) (by decide))).trans
          (W_main_arg0 m (dats m) c)⟩)
    (run_main m ρ)

end Cert.KernelIdeal.Pieces

end
-- ==== Proof.RefImports.lean ====
/-
  The reference's generated run and its read-at-an-index lemmas, gathered under one import.
-/
import proofs.«130361_j23888608100752_1_alg».proof.Proof.Gen.ReferenceIdeal.Run
import proofs.«130361_j23888608100752_1_alg».proof.Proof.Gen.ReferenceIdeal.Read
-- ==== Proof.RefCount.lean ====
/-
  The reference's counts.  Its scatter-add of ones into 768 cells at  bin + 256 · channel, read as
  a [3, 256] array, holds at (c, b) the number of pixels whose channel-c sample falls in bin b.
-/
import proofs.«130361_j23888608100752_1_alg».proof.Proof.RefImports
import proofs.«130361_j23888608100752_1_alg».proof.Proof.Spec

noncomputable section

namespace Cert.Hist

open Idealize.ShloMosaic Idealize.ShloMosaic.ValueIdx

open Cert.ReferenceIdeal Cert.ReferenceIdeal.Gen in
private theorem sd_window (j : Cert.ReferenceIdeal.S50331648.Idx) (a : Fin Cert.ReferenceIdeal.S768.rank) :
    scatter_S768_S50331648x1_S50331648_n_0_0_1.window j a = 0 := by
  unfold ScatterDims.window
  rw [dif_neg]
  decide +revert

/-- The scatter-indices index an update reads its index word at: the update's number, then 0. -/
private abbrev at2 (j : Cert.ReferenceIdeal.S50331648.Idx) : Cert.ReferenceIdeal.S50331648x1.Idx :=
  fun b => match b with
  | ⟨0, _⟩ => ⟨(j 0).val, (j 0).isLt⟩
  | ⟨1, _⟩ => ⟨0, Nat.one_pos⟩

open Cert.ReferenceIdeal Cert.ReferenceIdeal.Gen in
private theorem sd_siIdx (j : Cert.ReferenceIdeal.S50331648.Idx) (c : Fin scatter_S768_S50331648x1_S50331648_n_0_0_1.scatterDimsToOperandDims.length) :
    scatter_S768_S50331648x1_S50331648_n_0_0_1.siIdx j c = at2 j := by
  funext b
  match b with
  | ⟨0, _⟩ => rfl
  | ⟨1, _⟩ =>
    apply Fin.ext
    have hc : c.val < 1 := c.isLt
    unfold ScatterDims.siIdx
    split
    · show c.val = 0
      omega
    · rename_i hb
      exact absurd rfl hb

open Cert.ReferenceIdeal Cert.ReferenceIdeal.Gen in
private theorem sd_start (j : Cert.ReferenceIdeal.S50331648.Idx) (idx : IVec Cert.ReferenceIdeal.S50331648x1 32) (a : Fin Cert.ReferenceIdeal.S768.rank) :
    scatter_S768_S50331648x1_S50331648_n_0_0_1.start j idx a = (idx (at2 j)).toInt := by
  unfold ScatterDims.start
  rw [dif_pos (by decide +revert), sd_siIdx]

open Cert.ReferenceIdeal Cert.ReferenceIdeal.Gen in
/-- An update lands on a cell exactly when its index word, read signed, is the cell's number. -/
private theorem sd_resultIdx (j : Cert.ReferenceIdeal.S50331648.Idx) (idx : IVec Cert.ReferenceIdeal.S50331648x1 32) (i : Cert.ReferenceIdeal.S768.Idx) :
    scatter_S768_S50331648x1_S50331648_n_0_0_1.resultIdx? j idx = some i ↔ (idx (at2 j)).toInt = ((i 0).val : Int) := by
  unfold ScatterDims.resultIdx?
  simp only [sd_start, sd_window]
  have hi : (i 0).val < 768 := (i 0).isLt
  constructor
  · intro h
    split at h
    · rename_i hb
      have h0 := congrFun (Option.some.inj h) 0
      have := hb 0
      have h1 := congrArg Fin.val h0
      simp only at h1
      omega
    · exact absurd h (by simp)
  · intro h
    have hall : ∀ a : Fin Cert.ReferenceIdeal.S768.rank, 0 ≤ (idx (at2 j)).toInt + ((0 : Nat) : Int) ∧ (idx (at2 j)).toInt + ((0 : Nat) : Int) < (Cert.ReferenceIdeal.S768.size a : Int) := by
      intro a
      have : Cert.ReferenceIdeal.S768.size a = 768 := by
        match a with | ⟨0, _⟩ => rfl
      rw [this, h]; omega
    rw [dif_pos hall]
    congr 1
    funext a
    match a with
    | ⟨0, _⟩ =>
      apply Fin.ext
      show ((idx (at2 j)).toInt + ((0:Nat):Int)).toNat = (i 0).val
      rw [h]; omega

/-- The pattern 0x3F800000 is the extended real 1. -/
private theorem ofBits_one_f32 : Ideal.ofBits .f32 0x3F800000#32 = 1 := by
  simp [Ideal.ofBits, Ideal.ieee]
  rw [← EReal.coe_mul]; norm_num

/-- A word clamped to [0, 255] is one of the 256 bin numbers. -/
private theorem clamp_range (z : BitVec 32) :
    ∃ k : Fin 256, IntOp.minsi 255#32 (IntOp.maxsi 0#32 z) = BitVec.ofNat 32 k.val := by
  unfold IntOp.minsi IntOp.maxsi
  by_cases h1 : z.slt 0#32
  · rw [if_pos h1]
    exact ⟨0, by decide⟩
  · rw [if_neg h1]
    by_cases h2 : (255#32).slt z
    · rw [if_pos h2]
      exact ⟨255, by decide⟩
    · rw [if_neg h2]
      rw [BitVec.slt_eq_decide] at h1 h2
      simp only [decide_eq_true_eq, not_lt] at h1 h2
      have h3 : (0#32).toInt = 0 := by decide
      have h4 : (255#32).toInt = 255 := by decide
      rw [h3] at h1; rw [h4] at h2
      have hz : z.toInt = (z.toNat : Int) := by
        rw [BitVec.toInt_eq_toNat_cond] at h1 ⊢
        split
        · rfl
        · rename_i hh
          rw [if_neg hh] at h1
          have := z.isLt
          omega
      refine ⟨⟨z.toNat, by omega⟩, ?_⟩
      simp

private theorem binOf_range (x : EReal) : ∃ k : Fin 256, binOf x = BitVec.ofNat 32 k.val :=
  clamp_range _

open Cert.ReferenceIdeal Cert.ReferenceIdeal.Read in
/-- The index word of update j: the bin word of the sample at j's coordinates, plus 256 times j's channel. -/
private theorem idx_word (X : (⟨Cert.ReferenceIdeal.S64x512x512x3, .f32⟩ : BufTy).Contents (Elt Ideal))
    (j : Cert.ReferenceIdeal.S50331648.Idx) :
    val_main_v13 (F := Ideal) X (at2 j)
      = binOf (X (idx_main_v10 j)) + BitVec.ofNat 32 ((j 0).val % 3) * 256#32 := by
  rw [val_main_v13_apply]
  have hj : idx_main_v13 (at2 j) = j := by
    funext a
    match a with
    | ⟨0, _⟩ => rfl
  rw [hj, val_main_v10_apply, val_main_v9_apply, val_main_v3_apply, val_main_call0_v4_apply,
    val_main_call0_v3_apply, val_main_c_0_apply, val_main_call0_v2_apply, val_main_call0_v1_apply,
    val_main_call0_v0_apply, val_main_c_apply, val_main_v2_apply, val_main_v1_apply, val_main_v0_apply,
    val_main_cst_apply, val_main_v8_apply, val_main_v7_apply, val_main_v6_apply, val_main_v4_apply,
    val_main_v5_apply, val_main_c_1_apply]
  rfl

/-- A bin number plus 256 times a channel number, as a 32-bit word read signed, is that number. -/
private theorem word_toInt (k : Fin 256) (c : Nat) (hc : c < 3) :
    (BitVec.ofNat 32 k.val + BitVec.ofNat 32 c * 256#32).toInt = ((k.val + c * 256 : Nat) : Int) := by
  have hk := k.isLt
  have h : (BitVec.ofNat 32 k.val + BitVec.ofNat 32 c * 256#32).toNat = k.val + c * 256 := by
    simp only [BitVec.toNat_add, BitVec.toNat_mul, BitVec.toNat_ofNat]
    omega
  rw [BitVec.toInt_eq_toNat_cond, h]
  rw [if_pos (by omega)]

open Cert.ReferenceIdeal Cert.ReferenceIdeal.Gen in
/-- A cell of the scatter-add: its operand cell plus the sum of the updates whose index word, read signed,
    is the cell's number. -/
private theorem scatter_cell (x : Cert.ReferenceIdeal.S768.Idx → EReal) (idx : IVec Cert.ReferenceIdeal.S50331648x1 32)
    (upd : Cert.ReferenceIdeal.S50331648.Idx → EReal) (i : Cert.ReferenceIdeal.S768.Idx) :
    Ideal.hostScatterAdd scatter_S768_S50331648x1_S50331648_n_0_0_1 x idx upd i
      = x i + ∑ j ∈ Finset.univ.filter (fun j : Cert.ReferenceIdeal.S50331648.Idx =>
          (idx (at2 j)).toInt = ((i 0).val : Int)), upd j := by
  have hf : (Finset.univ.filter fun j : Cert.ReferenceIdeal.S50331648.Idx =>
        scatter_S768_S50331648x1_S50331648_n_0_0_1.resultIdx? j idx = some i)
      = Finset.univ.filter (fun j : Cert.ReferenceIdeal.S50331648.Idx =>
          (idx (at2 j)).toInt = ((i 0).val : Int)) :=
    Finset.filter_congr (fun j _ => sd_resultIdx j idx i)
  exact congrArg (fun s => x i + ∑ j ∈ s, upd j) hf

open Cert.ReferenceIdeal Cert.ReferenceIdeal.Read in
private theorem v14_eq (X : (⟨Cert.ReferenceIdeal.S64x512x512x3, .f32⟩ : BufTy).Contents (Elt Ideal)) :
    val_main_v14 (F := Ideal) X
      = Ideal.hostScatterAdd scatter_S768_S50331648x1_S50331648_n_0_0_1 (val_main_v12 (F := Ideal))
          (val_main_v13 (F := Ideal) X) (val_main_v11 (F := Ideal)) := by
  unfold val_main_v14 Host.scatterAdd
  rw [Ideal.hostScatterAdd_def]

/-- Adding ones over a finite set, from zero, gives the set's size. -/
private theorem add_sum_ones {α : Type} (s : Finset α) (a : EReal) (f : α → EReal) (ha : a = 0) (h : ∀ j, f j = 1) :
    a + ∑ j ∈ s, f j = ((s.card : ℕ) : EReal) := by
  rw [ha, zero_add, Finset.sum_congr rfl (fun j _ => h j), Finset.sum_const, nsmul_one]

open Cert.ReferenceIdeal Cert.ReferenceIdeal.Read in
/-- A cell of the scatter result is the number of updates whose index word, read signed, is the cell's number. -/
private theorem cell_eq_card (X : (⟨Cert.ReferenceIdeal.S64x512x512x3, .f32⟩ : BufTy).Contents (Elt Ideal))
    (i : Cert.ReferenceIdeal.S768.Idx) :
    val_main_v14 (F := Ideal) X i
      = (((Finset.univ.filter fun j : Cert.ReferenceIdeal.S50331648.Idx =>
          (val_main_v13 (F := Ideal) X (at2 j)).toInt = ((i 0).val : Int)).card : ℕ) : EReal) :=
  have h0 : val_main_v12 (F := Ideal) i = (0 : EReal) := by
    rw [val_main_v12_apply, val_main_cst_3_apply, Ideal.ofBits_def, Ideal.ofBits_zero_f32]
  have h1 : ∀ j, val_main_v11 (F := Ideal) j = (1 : EReal) := fun j => by
    rw [val_main_v11_apply, val_main_cst_2_apply, Ideal.ofBits_def, ofBits_one_f32]
  (congrFun (v14_eq X) i).trans
    ((scatter_cell (val_main_v12 (F := Ideal)) (val_main_v13 (F := Ideal) X) (val_main_v11 (F := Ideal)) i).trans
      (add_sum_ones _ (val_main_v12 (F := Ideal) i) (val_main_v11 (F := Ideal)) h0 h1))

/-- The flat index of pixel N's channel-c sample. -/
private def flat (N : Fin 16777216) (c : Fin 3) : Cert.ReferenceIdeal.S50331648.Idx :=
  fun a => match a with
  | ⟨0, _⟩ => ⟨3 * N.val + c.val, by
      have := N.isLt; have := c.isLt; show 3 * N.val + c.val < 50331648; omega⟩

/-- The pixel a flat index belongs to. -/
private def unflat (j : Cert.ReferenceIdeal.S50331648.Idx) : Fin 16777216 :=
  ⟨(j 0).val / 3, by have h : (j 0).val < 50331648 := (j 0).isLt; omega⟩

private theorem unflat_flat (N : Fin 16777216) (c : Fin 3) : unflat (flat N c) = N := by
  apply Fin.ext
  show (3 * N.val + c.val) / 3 = N.val
  have := c.isLt
  omega

private theorem flat_unflat (j : Cert.ReferenceIdeal.S50331648.Idx) (c : Fin 3) (h : (j 0).val % 3 = c.val) :
    flat (unflat j) c = j := by
  funext a
  match a with
  | ⟨0, _⟩ =>
    apply Fin.ext
    show 3 * ((j 0).val / 3) + c.val = (j 0).val
    omega

/-- The coordinates of flat index 3N + c are pixel N's, with channel c. -/
private theorem idx_flat (N : Fin 16777216) (c : Fin 3) :
    Cert.ReferenceIdeal.Read.idx_main_v10 (flat N c) = pix N c := by
  funext a
  have hN := N.isLt
  have hc := c.isLt
  match a with
  | ⟨0, _⟩ => apply Fin.ext; show (3 * N.val + c.val) / 786432 = N.val / 262144; omega
  | ⟨1, _⟩ => apply Fin.ext; show (3 * N.val + c.val) / 1536 % 512 = N.val / 512 % 512; omega
  | ⟨2, _⟩ => apply Fin.ext; show (3 * N.val + c.val) / 3 % 512 = N.val % 512; omega
  | ⟨3, _⟩ => apply Fin.ext; show (3 * N.val + c.val) % 3 = c.val; omega

open Cert.ReferenceIdeal Cert.ReferenceIdeal.Read in
/-- Update j lands on cell 256 · c + b exactly when j's channel is c and its sample's bin word is b. -/
private theorem lands_iff (X : (⟨Cert.ReferenceIdeal.S64x512x512x3, .f32⟩ : BufTy).Contents (Elt Ideal))
    (j : Cert.ReferenceIdeal.S50331648.Idx) (c : Fin 3) (b : Fin 256) :
    (val_main_v13 (F := Ideal) X (at2 j)).toInt = ((c.val * 256 + b.val : ℕ) : Int)
      ↔ ((j 0).val % 3 = c.val ∧ binOf (X (idx_main_v10 j)) = BitVec.ofNat 32 b.val) := by
  obtain ⟨k, hk⟩ := binOf_range (X (idx_main_v10 j))
  rw [idx_word, hk, word_toInt k _ (Nat.mod_lt _ (by decide))]
  have hkl := k.isLt
  have hb := b.isLt
  have hc := c.isLt
  have hm : (j 0).val % 3 < 3 := Nat.mod_lt _ (by decide)
  constructor
  · intro h
    have h' : k.val + (j 0).val % 3 * 256 = c.val * 256 + b.val := by exact_mod_cast h
    have hkb : k.val = b.val := by omega
    exact ⟨by omega, by rw [hkb]⟩
  · rintro ⟨h1, h2⟩
    have h3 := congrArg BitVec.toNat h2
    simp only [BitVec.toNat_ofNat] at h3
    have h' : k.val + (j 0).val % 3 * 256 = c.val * 256 + b.val := by omega
    rw [h']

open Cert.ReferenceIdeal Cert.ReferenceIdeal.Read in
/-- The updates landing on cell 256 · c + b are as many as the pixels whose channel-c sample falls in bin b:
    pixel N corresponds to the flat index 3N + c. -/
private theorem card_eq (X : (⟨Cert.ReferenceIdeal.S64x512x512x3, .f32⟩ : BufTy).Contents (Elt Ideal))
    (c : Fin 3) (b : Fin 256) :
    (Finset.univ.filter fun j : Cert.ReferenceIdeal.S50331648.Idx =>
        (val_main_v13 (F := Ideal) X (at2 j)).toInt = ((c.val * 256 + b.val : ℕ) : Int)).card
      = count X c b :=
  Eq.symm (Finset.card_bij' (fun N _ => flat N c) (fun j _ => unflat j)
    (fun N hN => Finset.mem_filter.2 ⟨Finset.mem_univ _, (lands_iff X (flat N c) c b).2
      ⟨show (3 * N.val + c.val) % 3 = c.val by have := c.isLt; omega,
        by rw [idx_flat]; exact (Finset.mem_filter.1 hN).2⟩⟩)
    (fun j hj => Finset.mem_filter.2 ⟨Finset.mem_univ _, by
      have h := (lands_iff X j c b).1 (Finset.mem_filter.1 hj).2
      rw [← idx_flat, flat_unflat j c h.1]
      exact h.2⟩)
    (fun N _ => unflat_flat N c)
    (fun j hj => flat_unflat j c ((lands_iff X j c b).1 (Finset.mem_filter.1 hj).2).1))

/-- The reshaped scatter result is the array of counts. -/
theorem ref_counts (X : (⟨Cert.ReferenceIdeal.S64x512x512x3, .f32⟩ : BufTy).Contents (Elt Ideal)) :
    Cert.ReferenceIdeal.Read.val_main_v15 (F := Ideal) X = counts X := by
  funext i
  have e := card_eq X (i 0) (i 1)
  exact (Cert.ReferenceIdeal.Read.val_main_v15_apply X i).trans
    ((cell_eq_card X (Cert.ReferenceIdeal.Read.idx_main_v15 i)).trans
      (congrArg (fun n : ℕ => (n : EReal)) e))

end Cert.Hist

end
-- ==== Proof.lean ====
/-
  A per-channel 256-bin histogram of a [64, 512, 512, 3] image, each channel normalized to sum 1.

  The kernel moves the channel axis first and flattens the pixels, then sweeps the 256 blocks of
  65536 pixels in two sweeps of 128: at each block it splits every sample's bin
  clip (trunc (256 · x), 0, 255) into two base-16 digits, forms the two 16 × 65536 one-hot
  matrices of the digits and multiplies them, which counts the samples of each digit pair, and
  adds the 16 × 16 counts to a running accumulator per channel; each sweep's accumulator is
  written out once, and the host adds the two, flattens a digit pair (h, l) to the bin 16 · h + l,
  divides each channel by its sum and transposes.  The reference adds 256 · channel to each bin and
  scatter-adds ones into 768 cells, then normalizes the same way.

  Over the extended reals both count, for channel c and bin b, the pixels whose channel-c sample
  falls in bin b; counts are natural numbers, so the order of the additions does not matter, and
  the two normalizations are one function of the counts.  No finiteness of the input is needed:
  the truncation to an integer is a total function of an extended real, the same on both sides.

  The three frames: the kernel's two are the generated frame certificates; the reference's is its
  generated run with the result dropped.  The ideal pass rewrote nothing, so there is nothing to
  preserve.
-/
import proofs.«130361_j23888608100752_1_alg».proof.Defs
import proofs.«130361_j23888608100752_1_alg».proof.Proof.Gen.Kernel
import proofs.«130361_j23888608100752_1_alg».proof.Proof.Gen.Kernel.Frame
import proofs.«130361_j23888608100752_1_alg».proof.Proof.Gen.KernelIdeal
import proofs.«130361_j23888608100752_1_alg».proof.Proof.Gen.KernelIdeal.Frame
import proofs.«130361_j23888608100752_1_alg».proof.Proof.Gen.ReferenceIdeal
import proofs.«130361_j23888608100752_1_alg».proof.Proof.Gen.Pre_finite_inputs
import proofs.«130361_j23888608100752_1_alg».proof.Proof.Tail
import proofs.«130361_j23888608100752_1_alg».proof.Proof.RefCount
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The reference's result is the normalization of its reshaped scatter result, which is the array
    of counts. -/
theorem ref_result (X : (⟨Cert.ReferenceIdeal.S64x512x512x3, .f32⟩ : BufTy).Contents (Elt Ideal)) :
    Cert.ReferenceIdeal.Read.val_main_v20 (F := Ideal) X
      = Cert.Hist.normalize (Cert.Hist.counts X) Cert.ReferenceIdeal.Facts₀.reducesTo_S3x256_S3_d1
          Cert.ReferenceIdeal.Facts₀.h_S_ Cert.ReferenceIdeal.Facts₀.bcast_S3_S3x1_0
          Cert.ReferenceIdeal.Facts₀.bcast_S3x1_S3x256_0_1 Cert.ReferenceIdeal.Facts₀.transposes_S3x256_S256x3_1_0 := by
  rw [← Cert.Hist.ref_counts]
  rfl

/-- Both programs end with the normalized counts of arguments that agree. -/
theorem algebraic : Cert.algebraic_KernelIdeal_ReferenceIdeal := by
  intro m ρ m' ρ' _ hagree
  refine ⟨fun c => Cert.KernelIdeal.Pieces.result m c, Cert.KernelIdeal.Pieces.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, ref_result, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
